-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S1024x1024 : Shape := ⟨2, ![1024, 1024]⟩
abbrev S1024 : Shape := ⟨1, ![1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S4x1024x1024 .f32) (main_arg1 : FVec F S4x1024x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S4x1024x1024 : Shape := ⟨3, ![4, 1024, 1024]⟩
abbrev S1024x1024 : Shape := ⟨2, ![1024, 1024]⟩
abbrev S1024 : Shape := ⟨1, ![1024]⟩
abbrev S4096x1024 : Shape := ⟨2, ![4096, 1024]⟩
abbrev S1024x2048 : Shape := ⟨2, ![1024, 2048]⟩
abbrev S2048 : Shape := ⟨1, ![2048]⟩
abbrev S512x1024 : Shape := ⟨2, ![512, 1024]⟩
abbrev S1x1024 : Shape := ⟨2, ![1, 1024]⟩
abbrev S4096x2048 : Shape := ⟨2, ![4096, 2048]⟩
abbrev S512x2048 : Shape := ⟨2, ![512, 2048]⟩
abbrev S1x2048 : Shape := ⟨2, ![1, 2048]⟩
abbrev S4x1024x2048 : Shape := ⟨3, ![4, 1024, 2048]⟩
abbrev S1x1024x128 : Shape := ⟨3, ![1, 1024, 128]⟩
abbrev S1x1024x64 : Shape := ⟨3, ![1, 1024, 64]⟩
abbrev S1024x64 : Shape := ⟨2, ![1024, 64]⟩
abbrev S1024x1 : Shape := ⟨2, ![1024, 1]⟩
abbrev S1024x128 : Shape := ⟨2, ![1024, 128]⟩

abbrev nBuf : Space → Nat
  | .hbm => 19
  | .vmem => 20
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S4096x1024, .f32⟩
  | .hbm, ⟨9, _⟩ => ⟨S4096x1024, .f32⟩
  | .hbm, ⟨10, _⟩ => ⟨S1024x1024, .bf16⟩
  | .hbm, ⟨11, _⟩ => ⟨S1024x2048, .f32⟩
  | .hbm, ⟨12, _⟩ => ⟨S1024x2048, .bf16⟩
  | .hbm, ⟨13, _⟩ => ⟨S2048, .f32⟩
  | .hbm, ⟨14, _⟩ => ⟨S4096x1024, .bf16⟩
  | .hbm, ⟨15, _⟩ => ⟨S4096x2048, .bf16⟩
  | .hbm, ⟨16, _⟩ => ⟨S4x1024x1024, .bf16⟩
  | .hbm, ⟨17, _⟩ => ⟨S4x1024x2048, .bf16⟩
  | .hbm, ⟨18, _⟩ => ⟨S4x1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x2048, .bf16⟩
  | .local _ .vmem, ⟨9, _⟩ => ⟨S2048, .f32⟩
  | .local _ .vmem, ⟨10, _⟩ => ⟨S512x2048, .bf16⟩
  | .local _ .vmem, ⟨11, _⟩ => ⟨S512x2048, .bf16⟩
  | .local _ .vmem, ⟨12, _⟩ => ⟨S1x1024x128, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x1024x128, .bf16⟩
  | .local _ .vmem, ⟨16, _⟩ => ⟨S1x1024x128, .bf16⟩
  | .local _ .vmem, ⟨17, _⟩ => ⟨S1x1024x128, .bf16⟩
  | .local _ .vmem, ⟨18, _⟩ => ⟨S1x1024x128, .f32⟩
  | .local _ .vmem, ⟨19, _⟩ => ⟨S1x1024x128, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![arg0.toNat, c0_i32.toNat, v0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4x1024x1024_S4096x1024 : S4x1024x1024.ShapeCasts S4096x1024
  bitsLt_bf16_f32 : FTy.bits .bf16 < FTy.bits .f32
  concatenates_S1024x1024_S1024x1024_S1024x2048_d1 : Shape.Concatenates [S1024x1024, S1024x1024] S1024x2048 1
  concatenates_S1024_S1024_S2048_d0 : Shape.Concatenates [S1024, S1024] S2048 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  packedbf16_S512x2048_S512x2048_0_0 : (Rect.unit (s := S512x2048) ![0, 0] S512x2048.size inb_S512x2048_S512x2048_0_0).PackedRows (EltTy.packing .bf16)
  shapeCasts_S4096x1024_S4x1024x1024 : S4096x1024.ShapeCasts S4x1024x1024
  shapeCasts_S4096x2048_S4x1024x2048 : S4096x2048.ShapeCasts S4x1024x2048
  inb_S1x1024x128_S1x1024x64_0_0_0 : ∀ a, (![0, 0, 0] : Fin 3 → Nat) a + S1x1024x64.size a ≤ S1x1024x128.size a
  h_S1x1024x64 : 0 < S1x1024x64.numel
  shapeCasts_S1x1024x64_S1024x64 : S1x1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  inb_S1x1024x128_S1x1024x64_0_0_64 : ∀ a, (![0, 0, 64] : Fin 3 → Nat) a + S1x1024x64.size a ≤ S1x1024x128.size a
  concatenates_S1024x64_S1024x64_S1024x128_d1 : Shape.Concatenates [S1024x64, S1024x64] S1024x128 1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  dot_S512x1024_S1024x1024_S512x1024_1_0_0_1_n_n_wf : DotDims.WF S512x1024 S1024x1024 S512x1024 [1] [0] [0] [1] [] []
  dot_S512x1024_S1024x2048_S512x2048_1_0_0_1_n_n_wf : DotDims.WF S512x1024 S1024x2048 S512x2048 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x2048.size a
  hwx1_1 : ∀ i : grid1.Coords, EltTy.bits .bf16 = 32 ∨ (Rect.block (s := S1024x2048) S1024x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S2048.size a
  hwx1_2 : ∀ i : grid1.Coords, EltTy.bits .f32 = 32 ∨ (Rect.block (s := S2048) S2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x2048.size a
  hwx1_3 : ∀ i : grid1.Coords, EltTy.bits .bf16 = 32 ∨ (Rect.block (s := S4096x2048) S512x2048.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x128.size a ≤ S4x1024x1024.size a
  hwx2_0 : ∀ i : grid2.Coords, EltTy.bits .bf16 = 32 ∨ (Rect.block (s := S4x1024x1024) S1x1024x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x128.size a ≤ S4x1024x2048.size a
  hwx2_1 : ∀ i : grid2.Coords, EltTy.bits .bf16 = 32 ∨ (Rect.block (s := S4x1024x2048) S1x1024x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x128.size a ≤ S4x1024x2048.size a
  hwx2_2 : ∀ i : grid2.Coords, EltTy.bits .bf16 = 32 ∨ (Rect.block (s := S4x1024x2048) S1x1024x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x128.size a ≤ S4x1024x1024.size a
  hwx2_3 : ∀ i : grid2.Coords, EltTy.bits .f32 = 32 ∨ (Rect.block (s := S4x1024x1024) S1x1024x128.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S1x1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1x1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x1024x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x1024x1024 : Shape := ⟨3, ![4, 1024, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S4x1024x16x64 : Shape := ⟨4, ![4, 1024, 16, 64]⟩
abbrev S4x16x1024x64 : Shape := ⟨4, ![4, 16, 1024, 64]⟩
abbrev S4x16x1024x1024 : Shape := ⟨4, ![4, 16, 1024, 1024]⟩
abbrev S_ : Shape := ⟨0, ![]⟩
abbrev S4x16x1024 : Shape := ⟨3, ![4, 16, 1024]⟩
abbrev S4x16x1024x1 : Shape := ⟨4, ![4, 16, 1024, 1]⟩

abbrev nBuf : Space → Nat
  | .hbm => 50
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4x1024x16x64, .f32⟩
  | .hbm, ⟨24, _⟩ => ⟨S4x16x1024x64, .f32⟩
  | .hbm, ⟨25, _⟩ => ⟨S4x1024x16x64, .f32⟩
  | .hbm, ⟨26, _⟩ => ⟨S4x16x1024x64, .f32⟩
  | .hbm, ⟨27, _⟩ => ⟨S4x1024x16x64, .f32⟩
  | .hbm, ⟨28, _⟩ => ⟨S4x16x1024x64, .f32⟩
  | .hbm, ⟨29, _⟩ => ⟨S4x16x1024x1024, .f32⟩
  | .hbm, ⟨30, _⟩ => ⟨S_, .f32⟩
  | .hbm, ⟨31, _⟩ => ⟨S4x16x1024x1024, .f32⟩
  | .hbm, ⟨32, _⟩ => ⟨S4x16x1024x1024, .f32⟩
  | .hbm, ⟨33, _⟩ => ⟨S_, .f32⟩
  | .hbm, ⟨34, _⟩ => ⟨S4x16x1024, .f32⟩
  | .hbm, ⟨35, _⟩ => ⟨S_, .f32⟩
  | .hbm, ⟨36, _⟩ => ⟨S4x16x1024, .f32⟩
  | .hbm, ⟨37, _⟩ => ⟨S4x16x1024, .f32⟩
  | .hbm, ⟨38, _⟩ => ⟨S4x16x1024x1, .f32⟩
  | .hbm, ⟨39, _⟩ => ⟨S4x16x1024x1024, .f32⟩
  | .hbm, ⟨40, _⟩ => ⟨S4x16x1024x1024, .f32⟩
  | .hbm, ⟨41, _⟩ => ⟨S4x16x1024x1024, .f32⟩
  | .hbm, ⟨42, _⟩ => ⟨S_, .f32⟩
  | .hbm, ⟨43, _⟩ => ⟨S4x16x1024, .f32⟩
  | .hbm, ⟨44, _⟩ => ⟨S4x16x1024x1, .f32⟩
  | .hbm, ⟨45, _⟩ => ⟨S4x16x1024x1024, .f32⟩
  | .hbm, ⟨46, _⟩ => ⟨S4x16x1024x1024, .f32⟩
  | .hbm, ⟨47, _⟩ => ⟨S4x16x1024x64, .f32⟩
  | .hbm, ⟨48, _⟩ => ⟨S4x1024x16x64, .f32⟩
  | .hbm, ⟨49, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  shapeCasts_S4x1024x1024_S4096x1024 : S4x1024x1024.ShapeCasts S4096x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  shapeCasts_S4096x1024_S4x1024x16x64 : S4096x1024.ShapeCasts S4x1024x16x64
  transposes_S4x1024x16x64_S4x16x1024x64_0_2_1_3 : S4x1024x16x64.Transposes [0, 2, 1, 3] S4x16x1024x64
  bcast_S_S4x16x1024x1024 : S_.BroadcastsInDim S4x16x1024x1024 (![] : Fin 0 → Fin S4x16x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  dot_S4096x1024_S1024x1024_S4096x1024_1_0_0_1_n_n_wf : DotDims.WF S4096x1024 S1024x1024 S4096x1024 [1] [0] [0] [1] [] []
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf

class Facts : Prop extends Facts₀ where

variable [Facts]
-- ==== Proof.K.Reg0.lean ====
/-
  The first projection, `q = x · Wq + bq`, as a pipeline over 8 row blocks of 512 rows: at every grid point the
  body is handed a block of 512 rows of the input, the whole weight matrix and the whole bias (both fetched once,
  at the first point, and left in place), and stores the block's 512 rows of the product plus the bias, whole,
  into the output's staging buffer. Stated at a PARAMETER `V`, the contents of the core's buffers when the
  region is entered.
-/
import proofs.«430604_j26903675142357_3_alg».proof.Proof.Gen.Kernel.Launch
import proofs.«430604_j26903675142357_3_alg».proof.Proof.Gen.Kernel.Skeleton
import proofs.«430604_j26903675142357_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether it was fetched there or
    kept from the point before (the block index has not moved then), for any proof data over `V`'s arrays whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rx0 : Rect S512x1024 := Rect.unit (s := S512x1024) ![0, 0] S512x1024.size inb_S512x1024_S512x1024_0_0
abbrev rw0 : Rect S1024x1024 := Rect.unit (s := S1024x1024) ![0, 0] S1024x1024.size inb_S1024x1024_S1024x1024_0_0
abbrev rb0 : Rect S1024 := Rect.unit (s := S1024) ![0] S1024.size inb_S1024_S1024_0
abbrev ro0 : Rect S512x1024 := Rect.unit (s := S512x1024) ![0, 0] S512x1024.size inb_S512x1024_S512x1024_0_0

/-- What the body leaves in the output's staging buffer, from the three input blocks: one whole-buffer store of
    the product of the rows with the weights plus the bias. -/
def out0_3 (x0 : Vec F S512x1024 .f32) (x1 : Vec F S1024x1024 .bf16) (x2 : Vec F S1024 .f32) : Vec F S512x1024 .bf16 :=
  View.canon [⟨ro0, k0_pay1 (View.ld x0 rx0) (View.ld x1 rw0) (View.ld x2 rb0)⟩]

/-- The one store covers the buffer. -/
theorem cover0_3 (p0 : Vec F S512x1024 .bf16) (y : Shape.Idx S512x1024) : ∃ pc ∈ ([⟨ro0, p0⟩] : List (View.Piece (Elt F) S512x1024 .bf16)), y ∈ pc.1.set :=
  View.cover_of_tiled [⟨ro0, p0⟩] (Shape.size S512x1024) (by rfl) y

/-! ## The body's triple -/

set_option maxHeartbeats 1000000 in
/-- The body on whole staging memrefs — the inputs' at given contents, the output's at anything — runs to the
    continuation with the inputs' as they were and the output's at `out0_3` of them. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S512x1024 .bf16) (harg4 : arg4.IsWhole)
    (x0 : Vec F S512x1024 .f32) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point
    `t` each input's buffer still at its block and the output's at `out0_3` of the blocks; the invariant the core's
    other scoped buffers and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  The second projection, keys and values side by side, `[k | v] = y · [Wk | Wv] + [bk | bv]`, as a pipeline over 8 row blocks of 512 rows: at every grid point the
  body is handed a block of 512 rows of the input, the whole weight matrix and the whole bias (both fetched once,
  at the first point, and left in place), and stores the block's 512 rows of the product plus the bias, whole,
  into the output's staging buffer. Stated at a PARAMETER `V`, the contents of the core's buffers when the
  region is entered.
-/
import proofs.«430604_j26903675142357_3_alg».proof.Proof.Gen.Kernel.Launch
import proofs.«430604_j26903675142357_3_alg».proof.Proof.Gen.Kernel.Skeleton
import proofs.«430604_j26903675142357_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether it was fetched there or
    kept from the point before (the block index has not moved then), for any proof data over `V`'s arrays whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rx1 : Rect S512x1024 := Rect.unit (s := S512x1024) ![0, 0] S512x1024.size inb_S512x1024_S512x1024_0_0
abbrev rw1 : Rect S1024x2048 := Rect.unit (s := S1024x2048) ![0, 0] S1024x2048.size inb_S1024x2048_S1024x2048_0_0
abbrev rb1 : Rect S2048 := Rect.unit (s := S2048) ![0] S2048.size inb_S2048_S2048_0
abbrev ro1 : Rect S512x2048 := Rect.unit (s := S512x2048) ![0, 0] S512x2048.size inb_S512x2048_S512x2048_0_0

/-- What the body leaves in the output's staging buffer, from the three input blocks: one whole-buffer store of
    the product of the rows with the weights plus the bias. -/
def out1_3 (x0 : Vec F S512x1024 .f32) (x1 : Vec F S1024x2048 .bf16) (x2 : Vec F S2048 .f32) : Vec F S512x2048 .bf16 :=
  View.canon [⟨ro1, k1_pay1 (View.ld x0 rx1) (View.ld x1 rw1) (View.ld x2 rb1)⟩]

/-- The one store covers the buffer. -/
theorem cover1_3 (p0 : Vec F S512x2048 .bf16) (y : Shape.Idx S512x2048) : ∃ pc ∈ ([⟨ro1, p0⟩] : List (View.Piece (Elt F) S512x2048 .bf16)), y ∈ pc.1.set :=
  View.cover_of_tiled [⟨ro1, p0⟩] (Shape.size S512x2048) (by rfl) y

/-! ## The body's triple -/

set_option maxHeartbeats 1000000 in
/-- The body on whole staging memrefs — the inputs' at given contents, the output's at anything — runs to the
    continuation with the inputs' as they were and the output's at `out1_3` of them. -/
theorem sound_kernel1 (c : Dev nD) (E : Set ℕ) (i : grid1.Coords)
    (arg1 : Memref sig .tc .vmem S512x1024 .f32) (harg1 : arg1.IsWhole) (arg2 : Memref sig .tc .vmem S1024x2048 .bf16) (harg2 : arg2.IsWhole)
    (arg3 : Memref sig .tc .vmem S2048 .f32) (harg3 : arg3.IsWhole) (arg4 : Memref sig .tc .vmem S512x2048 .bf16) (harg4 : arg4.IsWhole)
    (x0 : Vec F S512x1024 .f32) (x1 : Vec F S1024x2048 .bf16) (x2 : Vec F S2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point
    `t` each input's buffer still at its block and the output's at `out1_3` of the blocks; the invariant the core's
    other scoped buffers and its generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  The attention region: a pipeline over 4 batch entries × 8 pairs of heads. At every grid point the body is handed
  a [1024, 128] block of the queries, of the keys and of the values — the keys' and the values' blocks two lane
  windows of ONE array, the keys in its first 1024 columns and the values in its last —, and for each of the
  block's two heads (lanes 0–63 and 64–127) computes the scaled scores, their row maxima, the exponentials, their
  row sums, the exponentials' product with the values divided by the row sums; the two heads' results side by
  side are stored, whole, into the output's staging buffer. Stated at a PARAMETER `V`, the contents of the core's
  buffers when the region is entered.
-/
import proofs.«430604_j26903675142357_3_alg».proof.Proof.Gen.Kernel.Launch
import proofs.«430604_j26903675142357_3_alg».proof.Proof.Gen.Kernel.Skeleton
import proofs.«430604_j26903675142357_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point (each is fetched at every point),
    for any proof data over `V`'s arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: a block's first head, its second head, and a whole block -/

abbrev rlo2 : Rect S1x1024x128 := Rect.unit (s := S1x1024x128) ![0, 0, 0] S1x1024x64.size inb_S1x1024x128_S1x1024x64_0_0_0
abbrev rhi2 : Rect S1x1024x128 := Rect.unit (s := S1x1024x128) ![0, 0, 64] S1x1024x64.size inb_S1x1024x128_S1x1024x64_0_0_64
abbrev ro2 : Rect S1x1024x128 := Rect.unit (s := S1x1024x128) ![0, 0, 0] S1x1024x128.size inb_S1x1024x128_S1x1024x128_0_0_0

/-- What the body leaves in the output's staging buffer, from the three input blocks: one whole-buffer store of
    the two heads' normalised combinations side by side. -/
def out2_3 (x0 x1 x2 : Vec F S1x1024x128 .bf16) : Vec F S1x1024x128 .f32 :=
  View.canon [⟨ro2, k2_pay1 (k2_pay2 (View.ld x0 rlo2) (View.ld x1 rlo2) (View.ld x2 rlo2)) (k2_pay3 (View.ld x2 rhi2))
    (k2_pay4 (View.ld x0 rhi2) (View.ld x1 rhi2)) (k2_pay5 (View.ld x0 rhi2) (View.ld x1 rhi2))⟩]

/-- The one store covers the buffer. -/
theorem cover2_3 (p0 : Vec F S1x1024x128 .f32) (y : Shape.Idx S1x1024x128) : ∃ pc ∈ ([⟨ro2, p0⟩] : List (View.Piece (Elt F) S1x1024x128 .f32)), y ∈ pc.1.set :=
  View.cover_of_tiled [⟨ro2, p0⟩] (Shape.size S1x1024x128) (by rfl) y

/-! ## The body's triple -/

set_option maxHeartbeats 2000000 in
/-- The body on whole staging memrefs — the inputs' at given contents, the output's at anything — runs to the
    continuation with the inputs' as they were and the output's at `out2_3` of them. -/
theorem sound_kernel2 (c : Dev nD) (E : Set ℕ) (i : grid2.Coords)
    (arg2 : Memref sig .tc .vmem S1x1024x128 .bf16) (harg2 : arg2.IsWhole) (arg3 : Memref sig .tc .vmem S1x1024x128 .bf16) (harg3 : arg3.IsWhole)
    (arg4 : Memref sig .tc .vmem S1x1024x128 .bf16) (harg4 : arg4.IsWhole) (arg5 : Memref sig .tc .vmem S1x1024x128 .f32) (harg5 : arg5.IsWhole)
    (x0 x1 x2 : Vec F S1x1024x128 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2__attn_kernel i arg2 harg2 arg3 harg3 arg4 harg4 arg5 harg5) K := by
  simp only [cc2__attn_kernel_eq_skeleton]; unfold cc2__attn_kernel_skel
  simp only [k2_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the arrays as the region finds them; after the body at point
    `t` each input's buffer still at its block and the output's at `out2_3` of the blocks; the invariant the core's
    other scoped buffers and its generator register, untouched; nothing owed. The keys' and the values' windows
    read ONE array: each holds it at half the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q w := match w with
    | ⟨1, _⟩ => fullShare.left
    | ⟨2, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Vals.lean ====
/-
  What the core's buffers hold between the items of the program: the launch contents; after the first stretch of
  host operations (the inputs reshaped to rows, the query weights, the keys' and values' weights side by side,
  their biases end to end); after each projection region, whose output array then holds what the pipeline's
  write-backs leave; after the two reshapes back to [batch, token, column]; and after the attention region.
  Each region's proof data is stated at the contents the region is entered with.
-/
import proofs.«430604_j26903675142357_3_alg».proof.Proof.Gen.Kernel.Launch
import proofs.«430604_j26903675142357_3_alg».proof.Proof.Gen.Kernel.Skeleton
import proofs.«430604_j26903675142357_3_alg».proof.Proof.Gen.Kernel.Points
import proofs.«430604_j26903675142357_3_alg».proof.Proof.K.Reg0
import proofs.«430604_j26903675142357_3_alg».proof.Proof.K.Reg1
import proofs.«430604_j26903675142357_3_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first host stretch (the first projection's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first projection: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second projection. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After the second host stretch (the attention region's entry). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- After the attention region: the result array at what the pipeline leaves, every other buffer as entered (the
    region's other arrays are inputs). -/
def W5 (c : Dev nD) : Valuation τ sig (Elt F) :=
  Function.update (W4 m c) (Proc.devRef .tc main_v10) ((dat2 (V4 m) c).arrAt 3 cfg2.N)
abbrev V5 : (c : Dev nD) → (b : Ref sig .tc) → Buf (Elt F) ((c : Thread nD τ).loc b) := fun c b => W5 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W5_out (c : Dev nD) : W5 m c (Proc.devRef .tc main_v10) = (dat2 (V4 m) c).arrAt 3 cfg2.N := by
  unfold W5; exact Function.update_self _ _ _
theorem W5_of_ne (c : Dev nD) (b : Ref sig .tc) (hb : b ≠ main_v10) :
    W5 m c (Proc.devRef .tc b) = W4 m c (Proc.devRef .tc b) := by
  unfold W5; exact Function.update_of_ne (StableHlo.devRef_ne_of_ne hb) _ _

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c

end Cert.Kernel.Hand

end
-- ==== Proof.K.Run.lean ====
/-
  The program's run: the launch, then on each core the first host stretch, the two projection regions, the second
  host stretch and the attention region, each entered from what the one before it left. Between two items the
  core holds every unscoped buffer whole at that point's contents, its generator register at some state, and owes
  nothing. A region takes its windows' arrays out of those buffers at its entry and puts them back, at what its
  write-backs leave, at its exit. The attention region's keys and values windows read ONE array: at the entry
  that array's buffer is split into two half shares, one per window, and at the exit the halves — both still at
  the entry contents, the windows being inputs — are joined again.
-/
import proofs.«430604_j26903675142357_3_alg».proof.Proof.Gen.Kernel.Launch
import proofs.«430604_j26903675142357_3_alg».proof.Proof.Gen.Kernel.Skeleton
import proofs.«430604_j26903675142357_3_alg».proof.Proof.Gen.Kernel.Points
import proofs.«430604_j26903675142357_3_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write, and that no item writes an argument -/

/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps2_fresh : (hostOps2 : List (HloOp τ sig (Elt F))).Forall fun op => op.fresh = ∅ := by
  simp only [List.Forall]; repeat' constructor
/-- The references the first host stretch writes. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- The references the second host stretch writes. -/
abbrev hostOps2_W : List (Ref sig .tc) := [main_v8, main_v9]
theorem hostOps2_writes : (hostOps2 : List (HloOp τ sig (Elt F))).Forall fun op => op.writes ⊆ (hostOps2_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer the first host stretch does not write is as launched at the first projection's entry. -/
theorem W1_of (c : Dev nD) (r : Ref sig .tc) (h : r ∉ hostOps0_W) : W1 m c (Proc.devRef .tc r) = W0 m c (Proc.devRef .tc r) :=
  StableHlo.after_of_writes_sub hostOps0 _ hostOps0_writes h
/-- A buffer the second host stretch does not write is at the attention region's entry what the second projection left. -/
theorem W4_of (c : Dev nD) (r : Ref sig .tc) (h : r ∉ hostOps2_W) : W4 m c (Proc.devRef .tc r) = W3 m c (Proc.devRef .tc r) :=
  StableHlo.after_of_writes_sub hostOps2 _ hostOps2_writes h

/-- A buffer no item writes — none of the host stretches' results, no array of a projection's windows, not the
    attention region's output — holds at the end what it held at launch. -/
theorem W5_of_untouched (c : Dev nD) (r : Ref sig .tc) (h5 : r ≠ main_v10) (h4 : r ∉ hostOps2_W)
    (h3 : ∀ w, Pipeline.arrRef spec1 w ≠ r) (h2 : ∀ w, Pipeline.arrRef spec0 w ≠ r) (h1 : r ∉ hostOps0_W) :
    W5 m c (Proc.devRef .tc r) = m ((c : Thread nD τ).loc r) :=
  (W5_of_ne m c r h5).trans <| (W4_of m c r h4).trans <| (W3_of_ne m c r h3).trans <| (W2_of_ne m c r h2).trans <| (W1_of m c r h1).trans rfl

theorem W5_main_arg0 (c : Dev nD) : W5 m c (Proc.devRef .tc main_arg0) = m ((c : Thread nD τ).loc main_arg0) :=
  W5_of_untouched m c main_arg0 (by decide) (by decide) (by decide) (by decide) (by decide)
theorem W5_main_arg1 (c : Dev nD) : W5 m c (Proc.devRef .tc main_arg1) = m ((c : Thread nD τ).loc main_arg1) :=
  W5_of_untouched m c main_arg1 (by decide) (by decide) (by decide) (by decide) (by decide)
theorem W5_main_arg2 (c : Dev nD) : W5 m c (Proc.devRef .tc main_arg2) = m ((c : Thread nD τ).loc main_arg2) :=
  W5_of_untouched m c main_arg2 (by decide) (by decide) (by decide) (by decide) (by decide)
/-- The first projection reads this argument through an input window: the window's array ends as entered. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of m c main_arg3 (by decide)
    _ = W2 m c (Proc.devRef .tc main_arg3) := W3_of_ne m c main_arg3 (by decide)
    _ = W1 m c (Proc.devRef .tc main_arg3) := (W2_arr m c 2).trans (((dat0 (V1 m) c).arrAt_in 2 rfl _).trans (A_eq0 (V1 m) c 2))
    _ = W0 m c (Proc.devRef .tc main_arg3) := W1_of m c main_arg3 (by decide)
    _ = m ((c : Thread nD τ).loc main_arg3) := rfl
theorem W5_main_arg4 (c : Dev nD) : W5 m c (Proc.devRef .tc main_arg4) = m ((c : Thread nD τ).loc main_arg4) :=
  W5_of_untouched m c main_arg4 (by decide) (by decide) (by decide) (by decide) (by decide)
theorem W5_main_arg5 (c : Dev nD) : W5 m c (Proc.devRef .tc main_arg5) = m ((c : Thread nD τ).loc main_arg5) :=
  W5_of_untouched m c main_arg5 (by decide) (by decide) (by decide) (by decide) (by decide)
theorem W5_main_arg6 (c : Dev nD) : W5 m c (Proc.devRef .tc main_arg6) = m ((c : Thread nD τ).loc main_arg6) :=
  W5_of_untouched m c main_arg6 (by decide) (by decide) (by decide) (by decide) (by decide)
theorem W5_main_arg7 (c : Dev nD) : W5 m c (Proc.devRef .tc main_arg7) = m ((c : Thread nD τ).loc main_arg7) :=
  W5_of_untouched m c main_arg7 (by decide) (by decide) (by decide) (by decide) (by decide)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it leaves
    them at the contents after the stretch. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The two projections as segments -/

/-- At the first projection's exit each of its arrays holds what the pipeline leaves and every other buffer what it
    held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The same at the second projection's exit. -/
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

set_option backward.isDefEq.respectTransparency.types false in
/-- The first projection over the thread state: entered from every unscoped buffer at its entry contents, left with
    them at what its write-backs leave. Its windows' arrays are taken out of the unscoped buffers at the entry and put
    back at the exit; the generator register passes through the invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second projection over the thread state: entered from every unscoped buffer at its entry contents, left with
    them at what its write-backs leave. Its windows' arrays are taken out of the unscoped buffers at the entry and put
    back at the exit; the generator register passes through the invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region's arrays: three buffers behind four windows -/

section Shared

variable (V : (c : Dev nD) → (b : Ref sig .tc) → Buf (Elt F) ((c : Thread nD τ).loc b))

/-- The buffers behind the attention region's windows' arrays are three: the queries', the one the keys' and the
    values' windows both read, and the output's. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v8) ↦{fullShare} V main_v8) ∗ (((c : Thread nD τ).loc main_v9) ↦{fullShare} V main_v9)
          ∗ (((c : Thread nD τ).loc main_v10) ↦{fullShare} V main_v10)) := by
  unfold Pipeline.arrBufs
  exact bigSep_eq_bigSepL_of_eq [main_v8, main_v9, main_v10] (by decide) (by decide) _

/-- The region's arrays window by window: the queries' whole, the shared array at its left half share for the keys'
    window and at its right half share for the values', the output's whole. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_v8) ↦{fullShare} G 0) ∗ (((c : Thread nD τ).loc main_v9) ↦{fullShare.left} G 1)
          ∗ (((c : Thread nD τ).loc main_v9) ↦{fullShare.right} G 2) ∗ (((c : Thread nD τ).loc main_v10) ↦{fullShare} G 3)) := by
  unfold Dat.arrays
  rw [bigSep_W2, (arr_whole2 0).set_eq_univ, (arr_whole2 1).set_eq_univ, (arr_whole2 3).set_eq_univ]
  rfl

/-- ENTRY: the three buffers whole at the entry contents make the four windows' arrays at those contents, the shared
    buffer's full share split into its halves. -/
theorem arrays_of_arrBufs2 (c : Dev nD) :
    (Pipeline.arrBufs (Ix := Unit) (Name := ℕ) (U := UR sig nD τ) (Lvl := ℕ) spec2 c (V c) : sProp 𝕄)
      ⊢ (dat2 V c).arrays ((dat2 V c).arrAt · 0) := by
  rw [arrBufs2_eq, arrays2_eq]
  iintro ⟨H8, H9, H10⟩
  ihave H := (pointsTo_share (PosShare.mem_left_op_right fullShare)).1 $$ H9
  icases H with ⟨Hl, Hr⟩
  isplitl [H8]; · iexact H8
  isplitl [Hl]; · iexact Hl
  isplitl [Hr]; · iexact Hr
  iexact H10

/-- EXIT: the input windows' arrays are as entered, so the shared buffer's two halves, both at the entry contents,
    join to its full share; the output's array is at what the write-backs leave. -/
theorem arrBufs_of_arrays2 (c : Dev nD) :
    ((dat2 V c).arrays ((dat2 V c).arrAt · cfg2.N) : sProp 𝕄)
      ⊢ iprop((((c : Thread nD τ).loc main_v8) ↦{fullShare} V c main_v8) ∗ (((c : Thread nD τ).loc main_v9) ↦{fullShare} V c main_v9)
          ∗ (((c : Thread nD τ).loc main_v10) ↦{fullShare} (dat2 V c).arrAt 3 cfg2.N)) := by
  rw [arrays2_eq, (dat2 V c).arrAt_in 0 rfl, (dat2 V c).arrAt_in 1 rfl, (dat2 V c).arrAt_in 2 rfl]
  iintro ⟨H8, Hl, Hr, H10⟩
  isplitl [H8]; · iexact H8
  isplitl [Hl Hr]
  · iapply (pointsTo_share (PosShare.mem_left_op_right fullShare)).2
    isplitl [Hl]; · iexact Hl
    iexact Hr
  iexact H10

end Shared

/-- A core's unscoped buffers are the three buffers behind the attention region's windows' arrays and the rest. -/
theorem unscopedBufs_split2 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec2 c V ∗ Pipeline.unscopedRest spec2 c V) :=
  Pipeline.unscopedBufs_split₀ cfgs 2 winFacts₀2.arr_unscoped c V

/-- The attention region's ENTRY, over the held buffers: every unscoped buffer at the entry contents is the four
    windows' arrays at those contents and the buffers no window reads. -/
theorem held_split2 (c : Dev nD) :
    (StableHlo.held (c : Thread nD τ) (Pipeline.ucRefs τ sig) (W4 m c) : sProp 𝕄)
      ⊢ iprop((dat2 (V4 m) c).arrays ((dat2 (V4 m) c).arrAt · 0)
          ∗ Pipeline.unscopedRest (Ix := Unit) (Name := ℕ) (U := UR sig nD τ) (Lvl := ℕ) spec2 c (V4 m c)) := by
  rw [← Pipeline.unscopedBufs_held (Ix := Unit) (Name := ℕ) (U := UR sig nD τ) (Lvl := ℕ) c (W4 m c),
    unscopedBufs_split2 c (V4 m c)]
  exact sep_mono (arrays_of_arrBufs2 (V4 m) c) .rfl

/-- The buffers no window of the attention region reads are, at its exit, as at its entry. -/
theorem unscopedRest2_exit (c : Dev nD) :
    (Pipeline.unscopedRest (Ix := Unit) (Name := ℕ) (U := UR sig nD τ) (Lvl := ℕ) spec2 c (V5 m c) : sProp 𝕄)
      = Pipeline.unscopedRest spec2 c (V4 m c) := by
  unfold Pipeline.unscopedRest
  exact bigSep_congr fun b hb => by
    rw [show V5 m c b = V4 m c b from W5_of_ne m c b fun e => (Finset.mem_sdiff.mp hb).2 (by subst e; decide)]

/-- The attention region's EXIT, over the held buffers: the windows' arrays at what the region leaves and the buffers
    no window reads are every unscoped buffer at the last boundary's contents. -/
theorem held_join2 (c : Dev nD) :
    iprop((dat2 (V4 m) c).arrays ((dat2 (V4 m) c).arrAt · cfg2.N)
        ∗ Pipeline.unscopedRest (Ix := Unit) (Name := ℕ) (U := UR sig nD τ) (Lvl := ℕ) spec2 c (V4 m c))
      ⊢ (StableHlo.held (c : Thread nD τ) (Pipeline.ucRefs τ sig) (W5 m c) : sProp 𝕄) := by
  rw [← Pipeline.unscopedBufs_held (Ix := Unit) (Name := ℕ) (U := UR sig nD τ) (Lvl := ℕ) c (W5 m c),
    unscopedBufs_split2 c (V5 m c), arrBufs2_eq, unscopedRest2_exit,
    show V5 m c main_v8 = V4 m c main_v8 from W5_of_ne m c main_v8 (by decide),
    show V5 m c main_v9 = V4 m c main_v9 from W5_of_ne m c main_v9 (by decide),
    show V5 m c main_v10 = (dat2 (V4 m) c).arrAt 3 cfg2.N from W5_out m c]
  exact sep_mono (arrBufs_of_arrays2 (V4 m) c) .rfl

/-! ## The attention region as a segment -/

set_option backward.isDefEq.respectTransparency.types false in
/-- The attention region over the thread state: entered from every unscoped buffer at its entry contents, left with
    them at the last boundary's contents. Its windows' arrays are taken out of the three buffers behind them at the
    entry — the shared one split in halves — and put back at the exit; the generator register passes through the
    invariant; nothing is owed. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := held_split2 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := held_join2 m c
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

/-- The program's five segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m) ]
/-- The program is the run of its segments. -/
theorem main_run (c : Dev nD) : main (F := F) c = Pipeline.Seg.run (segs m) := (main_chain c).trans (by chain_rfl)

set_option backward.isDefEq.respectTransparency.types false in
/-- Every weakly fair execution of the program terminates, nothing faulting, with the result array at the last
    boundary's contents and every argument array as launched. -/
theorem run_out : θ_run defs (onTc (τ := τ) (main (F := F))) ⟨m, fun _ => 0, ρ⟩ (fun r => ∀ c : Dev nD,
      r.2.mem ((c.tc : Thread nD τ).loc main_v10) = W5 m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨h c _ (mem_uc main_v10 (by decide)),
        (h c _ (mem_uc main_arg0 (by decide))).trans (W5_main_arg0 m c),
        (h c _ (mem_uc main_arg1 (by decide))).trans (W5_main_arg1 m c),
        (h c _ (mem_uc main_arg2 (by decide))).trans (W5_main_arg2 m c),
        (h c _ (mem_uc main_arg3 (by decide))).trans (W5_main_arg3 m c),
        (h c _ (mem_uc main_arg4 (by decide))).trans (W5_main_arg4 m c),
        (h c _ (mem_uc main_arg5 (by decide))).trans (W5_main_arg5 m c),
        (h c _ (mem_uc main_arg6 (by decide))).trans (W5_main_arg6 m c),
        (h c _ (mem_uc main_arg7 (by decide))).trans (W5_main_arg7 m c)⟩)

end Cert.Kernel.Hand

end
-- ==== Proof.KI.Reg0.lean ====
/-
  The first projection, `q = x · Wq + bq`, as a pipeline over 8 row blocks of 512 rows: at every grid point the
  body is handed a block of 512 rows of the input, the whole weight matrix and the whole bias (both fetched once,
  at the first point, and left in place), and stores the block's 512 rows of the product plus the bias, whole,
  into the output's staging buffer. Stated at a PARAMETER `V`, the contents of the core's buffers when the
  region is entered.
-/
import proofs.«430604_j26903675142357_3_alg».proof.Proof.Gen.KernelIdeal.Launch
import proofs.«430604_j26903675142357_3_alg».proof.Proof.Gen.KernelIdeal.Skeleton
import proofs.«430604_j26903675142357_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether it was fetched there or
    kept from the point before (the block index has not moved then), for any proof data over `V`'s arrays whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rx0 : Rect S512x1024 := Rect.unit (s := S512x1024) ![0, 0] S512x1024.size inb_S512x1024_S512x1024_0_0
abbrev rw0 : Rect S1024x1024 := Rect.unit (s := S1024x1024) ![0, 0] S1024x1024.size inb_S1024x1024_S1024x1024_0_0
abbrev rb0 : Rect S1024 := Rect.unit (s := S1024) ![0] S1024.size inb_S1024_S1024_0
abbrev ro0 : Rect S512x1024 := Rect.unit (s := S512x1024) ![0, 0] S512x1024.size inb_S512x1024_S512x1024_0_0

/-- What the body leaves in the output's staging buffer, from the three input blocks: one whole-buffer store of
    the product of the rows with the weights plus the bias. -/
def out0_3 (x0 : Vec F S512x1024 .f32) (x1 : Vec F S1024x1024 .bf16) (x2 : Vec F S1024 .f32) : Vec F S512x1024 .bf16 :=
  View.canon [⟨ro0, k0_pay1 (View.ld x0 rx0) (View.ld x1 rw0) (View.ld x2 rb0)⟩]

/-- The one store covers the buffer. -/
theorem cover0_3 (p0 : Vec F S512x1024 .bf16) (y : Shape.Idx S512x1024) : ∃ pc ∈ ([⟨ro0, p0⟩] : List (View.Piece (Elt F) S512x1024 .bf16)), y ∈ pc.1.set :=
  View.cover_of_tiled [⟨ro0, p0⟩] (Shape.size S512x1024) (by rfl) y

/-! ## The body's triple -/

set_option maxHeartbeats 1000000 in
/-- The body on whole staging memrefs — the inputs' at given contents, the output's at anything — runs to the
    continuation with the inputs' as they were and the output's at `out0_3` of them. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S512x1024 .bf16) (harg4 : arg4.IsWhole)
    (x0 : Vec F S512x1024 .f32) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point
    `t` each input's buffer still at its block and the output's at `out0_3` of the blocks; the invariant the core's
    other scoped buffers and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The second projection, keys and values side by side, `[k | v] = y · [Wk | Wv] + [bk | bv]`, as a pipeline over 8 row blocks of 512 rows: at every grid point the
  body is handed a block of 512 rows of the input, the whole weight matrix and the whole bias (both fetched once,
  at the first point, and left in place), and stores the block's 512 rows of the product plus the bias, whole,
  into the output's staging buffer. Stated at a PARAMETER `V`, the contents of the core's buffers when the
  region is entered.
-/
import proofs.«430604_j26903675142357_3_alg».proof.Proof.Gen.KernelIdeal.Launch
import proofs.«430604_j26903675142357_3_alg».proof.Proof.Gen.KernelIdeal.Skeleton
import proofs.«430604_j26903675142357_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether it was fetched there or
    kept from the point before (the block index has not moved then), for any proof data over `V`'s arrays whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rx1 : Rect S512x1024 := Rect.unit (s := S512x1024) ![0, 0] S512x1024.size inb_S512x1024_S512x1024_0_0
abbrev rw1 : Rect S1024x2048 := Rect.unit (s := S1024x2048) ![0, 0] S1024x2048.size inb_S1024x2048_S1024x2048_0_0
abbrev rb1 : Rect S2048 := Rect.unit (s := S2048) ![0] S2048.size inb_S2048_S2048_0
abbrev ro1 : Rect S512x2048 := Rect.unit (s := S512x2048) ![0, 0] S512x2048.size inb_S512x2048_S512x2048_0_0

/-- What the body leaves in the output's staging buffer, from the three input blocks: one whole-buffer store of
    the product of the rows with the weights plus the bias. -/
def out1_3 (x0 : Vec F S512x1024 .f32) (x1 : Vec F S1024x2048 .bf16) (x2 : Vec F S2048 .f32) : Vec F S512x2048 .bf16 :=
  View.canon [⟨ro1, k1_pay1 (View.ld x0 rx1) (View.ld x1 rw1) (View.ld x2 rb1)⟩]

/-- The one store covers the buffer. -/
theorem cover1_3 (p0 : Vec F S512x2048 .bf16) (y : Shape.Idx S512x2048) : ∃ pc ∈ ([⟨ro1, p0⟩] : List (View.Piece (Elt F) S512x2048 .bf16)), y ∈ pc.1.set :=
  View.cover_of_tiled [⟨ro1, p0⟩] (Shape.size S512x2048) (by rfl) y

/-! ## The body's triple -/

set_option maxHeartbeats 1000000 in
/-- The body on whole staging memrefs — the inputs' at given contents, the output's at anything — runs to the
    continuation with the inputs' as they were and the output's at `out1_3` of them. -/
theorem sound_kernel1 (c : Dev nD) (E : Set ℕ) (i : grid1.Coords)
    (arg1 : Memref sig .tc .vmem S512x1024 .f32) (harg1 : arg1.IsWhole) (arg2 : Memref sig .tc .vmem S1024x2048 .bf16) (harg2 : arg2.IsWhole)
    (arg3 : Memref sig .tc .vmem S2048 .f32) (harg3 : arg3.IsWhole) (arg4 : Memref sig .tc .vmem S512x2048 .bf16) (harg4 : arg4.IsWhole)
    (x0 : Vec F S512x1024 .f32) (x1 : Vec F S1024x2048 .bf16) (x2 : Vec F S2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point
    `t` each input's buffer still at its block and the output's at `out1_3` of the blocks; the invariant the core's
    other scoped buffers and its generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The attention region: a pipeline over 4 batch entries × 8 pairs of heads. At every grid point the body is handed
  a [1024, 128] block of the queries, of the keys and of the values — the keys' and the values' blocks two lane
  windows of ONE array, the keys in its first 1024 columns and the values in its last —, and for each of the
  block's two heads (lanes 0–63 and 64–127) computes the scaled scores, their row maxima, the exponentials, their
  row sums, the exponentials' product with the values divided by the row sums; the two heads' results side by
  side are stored, whole, into the output's staging buffer. Stated at a PARAMETER `V`, the contents of the core's
  buffers when the region is entered.
-/
import proofs.«430604_j26903675142357_3_alg».proof.Proof.Gen.KernelIdeal.Launch
import proofs.«430604_j26903675142357_3_alg».proof.Proof.Gen.KernelIdeal.Skeleton
import proofs.«430604_j26903675142357_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point (each is fetched at every point),
    for any proof data over `V`'s arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: a block's first head, its second head, and a whole block -/

abbrev rlo2 : Rect S1x1024x128 := Rect.unit (s := S1x1024x128) ![0, 0, 0] S1x1024x64.size inb_S1x1024x128_S1x1024x64_0_0_0
abbrev rhi2 : Rect S1x1024x128 := Rect.unit (s := S1x1024x128) ![0, 0, 64] S1x1024x64.size inb_S1x1024x128_S1x1024x64_0_0_64
abbrev ro2 : Rect S1x1024x128 := Rect.unit (s := S1x1024x128) ![0, 0, 0] S1x1024x128.size inb_S1x1024x128_S1x1024x128_0_0_0

/-- What the body leaves in the output's staging buffer, from the three input blocks: one whole-buffer store of
    the two heads' normalised combinations side by side. -/
def out2_3 (x0 x1 x2 : Vec F S1x1024x128 .bf16) : Vec F S1x1024x128 .f32 :=
  View.canon [⟨ro2, k2_pay1 (k2_pay2 (View.ld x0 rlo2) (View.ld x1 rlo2) (View.ld x2 rlo2)) (k2_pay3 (View.ld x2 rhi2))
    (k2_pay4 (View.ld x0 rhi2) (View.ld x1 rhi2)) (k2_pay5 (View.ld x0 rhi2) (View.ld x1 rhi2))⟩]

/-- The one store covers the buffer. -/
theorem cover2_3 (p0 : Vec F S1x1024x128 .f32) (y : Shape.Idx S1x1024x128) : ∃ pc ∈ ([⟨ro2, p0⟩] : List (View.Piece (Elt F) S1x1024x128 .f32)), y ∈ pc.1.set :=
  View.cover_of_tiled [⟨ro2, p0⟩] (Shape.size S1x1024x128) (by rfl) y

/-! ## The body's triple -/

set_option maxHeartbeats 2000000 in
/-- The body on whole staging memrefs — the inputs' at given contents, the output's at anything — runs to the
    continuation with the inputs' as they were and the output's at `out2_3` of them. -/
theorem sound_kernel2 (c : Dev nD) (E : Set ℕ) (i : grid2.Coords)
    (arg2 : Memref sig .tc .vmem S1x1024x128 .bf16) (harg2 : arg2.IsWhole) (arg3 : Memref sig .tc .vmem S1x1024x128 .bf16) (harg3 : arg3.IsWhole)
    (arg4 : Memref sig .tc .vmem S1x1024x128 .bf16) (harg4 : arg4.IsWhole) (arg5 : Memref sig .tc .vmem S1x1024x128 .f32) (harg5 : arg5.IsWhole)
    (x0 x1 x2 : Vec F S1x1024x128 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2__attn_kernel i arg2 harg2 arg3 harg3 arg4 harg4 arg5 harg5) K := by
  simp only [cc2__attn_kernel_eq_skeleton]; unfold cc2__attn_kernel_skel
  simp only [k2_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the arrays as the region finds them; after the body at point
    `t` each input's buffer still at its block and the output's at `out2_3` of the blocks; the invariant the core's
    other scoped buffers and its generator register, untouched; nothing owed. The keys' and the values' windows
    read ONE array: each holds it at half the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q w := match w with
    | ⟨1, _⟩ => fullShare.left
    | ⟨2, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Vals.lean ====
/-
  What the core's buffers hold between the items of the program: the launch contents; after the first stretch of
  host operations (the inputs reshaped to rows, the query weights, the keys' and values' weights side by side,
  their biases end to end); after each projection region, whose output array then holds what the pipeline's
  write-backs leave; after the two reshapes back to [batch, token, column]; and after the attention region.
  Each region's proof data is stated at the contents the region is entered with.
-/
import proofs.«430604_j26903675142357_3_alg».proof.Proof.Gen.KernelIdeal.Launch
import proofs.«430604_j26903675142357_3_alg».proof.Proof.Gen.KernelIdeal.Skeleton
import proofs.«430604_j26903675142357_3_alg».proof.Proof.Gen.KernelIdeal.Points
import proofs.«430604_j26903675142357_3_alg».proof.Proof.KI.Reg0
import proofs.«430604_j26903675142357_3_alg».proof.Proof.KI.Reg1
import proofs.«430604_j26903675142357_3_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first host stretch (the first projection's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first projection: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second projection. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After the second host stretch (the attention region's entry). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- After the attention region: the result array at what the pipeline leaves, every other buffer as entered (the
    region's other arrays are inputs). -/
def W5 (c : Dev nD) : Valuation τ sig (Elt F) :=
  Function.update (W4 m c) (Proc.devRef .tc main_v10) ((dat2 (V4 m) c).arrAt 3 cfg2.N)
abbrev V5 : (c : Dev nD) → (b : Ref sig .tc) → Buf (Elt F) ((c : Thread nD τ).loc b) := fun c b => W5 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W5_out (c : Dev nD) : W5 m c (Proc.devRef .tc main_v10) = (dat2 (V4 m) c).arrAt 3 cfg2.N := by
  unfold W5; exact Function.update_self _ _ _
theorem W5_of_ne (c : Dev nD) (b : Ref sig .tc) (hb : b ≠ main_v10) :
    W5 m c (Proc.devRef .tc b) = W4 m c (Proc.devRef .tc b) := by
  unfold W5; exact Function.update_of_ne (StableHlo.devRef_ne_of_ne hb) _ _

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c

end Cert.KernelIdeal.Hand

end
-- ==== Proof.KI.Run.lean ====
/-
  The program's run: the launch, then on each core the first host stretch, the two projection regions, the second
  host stretch and the attention region, each entered from what the one before it left. Between two items the
  core holds every unscoped buffer whole at that point's contents, its generator register at some state, and owes
  nothing. A region takes its windows' arrays out of those buffers at its entry and puts them back, at what its
  write-backs leave, at its exit. The attention region's keys and values windows read ONE array: at the entry
  that array's buffer is split into two half shares, one per window, and at the exit the halves — both still at
  the entry contents, the windows being inputs — are joined again.
-/
import proofs.«430604_j26903675142357_3_alg».proof.Proof.Gen.KernelIdeal.Launch
import proofs.«430604_j26903675142357_3_alg».proof.Proof.Gen.KernelIdeal.Skeleton
import proofs.«430604_j26903675142357_3_alg».proof.Proof.Gen.KernelIdeal.Points
import proofs.«430604_j26903675142357_3_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write, and that no item writes an argument -/

/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps2_fresh : (hostOps2 : List (HloOp τ sig (Elt F))).Forall fun op => op.fresh = ∅ := by
  simp only [List.Forall]; repeat' constructor
/-- The references the first host stretch writes. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- The references the second host stretch writes. -/
abbrev hostOps2_W : List (Ref sig .tc) := [main_v8, main_v9]
theorem hostOps2_writes : (hostOps2 : List (HloOp τ sig (Elt F))).Forall fun op => op.writes ⊆ (hostOps2_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer the first host stretch does not write is as launched at the first projection's entry. -/
theorem W1_of (c : Dev nD) (r : Ref sig .tc) (h : r ∉ hostOps0_W) : W1 m c (Proc.devRef .tc r) = W0 m c (Proc.devRef .tc r) :=
  StableHlo.after_of_writes_sub hostOps0 _ hostOps0_writes h
/-- A buffer the second host stretch does not write is at the attention region's entry what the second projection left. -/
theorem W4_of (c : Dev nD) (r : Ref sig .tc) (h : r ∉ hostOps2_W) : W4 m c (Proc.devRef .tc r) = W3 m c (Proc.devRef .tc r) :=
  StableHlo.after_of_writes_sub hostOps2 _ hostOps2_writes h

/-- A buffer no item writes — none of the host stretches' results, no array of a projection's windows, not the
    attention region's output — holds at the end what it held at launch. -/
theorem W5_of_untouched (c : Dev nD) (r : Ref sig .tc) (h5 : r ≠ main_v10) (h4 : r ∉ hostOps2_W)
    (h3 : ∀ w, Pipeline.arrRef spec1 w ≠ r) (h2 : ∀ w, Pipeline.arrRef spec0 w ≠ r) (h1 : r ∉ hostOps0_W) :
    W5 m c (Proc.devRef .tc r) = m ((c : Thread nD τ).loc r) :=
  (W5_of_ne m c r h5).trans <| (W4_of m c r h4).trans <| (W3_of_ne m c r h3).trans <| (W2_of_ne m c r h2).trans <| (W1_of m c r h1).trans rfl

theorem W5_main_arg0 (c : Dev nD) : W5 m c (Proc.devRef .tc main_arg0) = m ((c : Thread nD τ).loc main_arg0) :=
  W5_of_untouched m c main_arg0 (by decide) (by decide) (by decide) (by decide) (by decide)
theorem W5_main_arg1 (c : Dev nD) : W5 m c (Proc.devRef .tc main_arg1) = m ((c : Thread nD τ).loc main_arg1) :=
  W5_of_untouched m c main_arg1 (by decide) (by decide) (by decide) (by decide) (by decide)
theorem W5_main_arg2 (c : Dev nD) : W5 m c (Proc.devRef .tc main_arg2) = m ((c : Thread nD τ).loc main_arg2) :=
  W5_of_untouched m c main_arg2 (by decide) (by decide) (by decide) (by decide) (by decide)
/-- The first projection reads this argument through an input window: the window's array ends as entered. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of m c main_arg3 (by decide)
    _ = W2 m c (Proc.devRef .tc main_arg3) := W3_of_ne m c main_arg3 (by decide)
    _ = W1 m c (Proc.devRef .tc main_arg3) := (W2_arr m c 2).trans (((dat0 (V1 m) c).arrAt_in 2 rfl _).trans (A_eq0 (V1 m) c 2))
    _ = W0 m c (Proc.devRef .tc main_arg3) := W1_of m c main_arg3 (by decide)
    _ = m ((c : Thread nD τ).loc main_arg3) := rfl
theorem W5_main_arg4 (c : Dev nD) : W5 m c (Proc.devRef .tc main_arg4) = m ((c : Thread nD τ).loc main_arg4) :=
  W5_of_untouched m c main_arg4 (by decide) (by decide) (by decide) (by decide) (by decide)
theorem W5_main_arg5 (c : Dev nD) : W5 m c (Proc.devRef .tc main_arg5) = m ((c : Thread nD τ).loc main_arg5) :=
  W5_of_untouched m c main_arg5 (by decide) (by decide) (by decide) (by decide) (by decide)
theorem W5_main_arg6 (c : Dev nD) : W5 m c (Proc.devRef .tc main_arg6) = m ((c : Thread nD τ).loc main_arg6) :=
  W5_of_untouched m c main_arg6 (by decide) (by decide) (by decide) (by decide) (by decide)
theorem W5_main_arg7 (c : Dev nD) : W5 m c (Proc.devRef .tc main_arg7) = m ((c : Thread nD τ).loc main_arg7) :=
  W5_of_untouched m c main_arg7 (by decide) (by decide) (by decide) (by decide) (by decide)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it leaves
    them at the contents after the stretch. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The two projections as segments -/

/-- At the first projection's exit each of its arrays holds what the pipeline leaves and every other buffer what it
    held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The same at the second projection's exit. -/
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

set_option backward.isDefEq.respectTransparency.types false in
/-- The first projection over the thread state: entered from every unscoped buffer at its entry contents, left with
    them at what its write-backs leave. Its windows' arrays are taken out of the unscoped buffers at the entry and put
    back at the exit; the generator register passes through the invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second projection over the thread state: entered from every unscoped buffer at its entry contents, left with
    them at what its write-backs leave. Its windows' arrays are taken out of the unscoped buffers at the entry and put
    back at the exit; the generator register passes through the invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region's arrays: three buffers behind four windows -/

section Shared

variable (V : (c : Dev nD) → (b : Ref sig .tc) → Buf (Elt F) ((c : Thread nD τ).loc b))

/-- The buffers behind the attention region's windows' arrays are three: the queries', the one the keys' and the
    values' windows both read, and the output's. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v8) ↦{fullShare} V main_v8) ∗ (((c : Thread nD τ).loc main_v9) ↦{fullShare} V main_v9)
          ∗ (((c : Thread nD τ).loc main_v10) ↦{fullShare} V main_v10)) := by
  unfold Pipeline.arrBufs
  exact bigSep_eq_bigSepL_of_eq [main_v8, main_v9, main_v10] (by decide) (by decide) _

/-- The region's arrays window by window: the queries' whole, the shared array at its left half share for the keys'
    window and at its right half share for the values', the output's whole. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_v8) ↦{fullShare} G 0) ∗ (((c : Thread nD τ).loc main_v9) ↦{fullShare.left} G 1)
          ∗ (((c : Thread nD τ).loc main_v9) ↦{fullShare.right} G 2) ∗ (((c : Thread nD τ).loc main_v10) ↦{fullShare} G 3)) := by
  unfold Dat.arrays
  rw [bigSep_W2, (arr_whole2 0).set_eq_univ, (arr_whole2 1).set_eq_univ, (arr_whole2 3).set_eq_univ]
  rfl

/-- ENTRY: the three buffers whole at the entry contents make the four windows' arrays at those contents, the shared
    buffer's full share split into its halves. -/
theorem arrays_of_arrBufs2 (c : Dev nD) :
    (Pipeline.arrBufs (Ix := Unit) (Name := ℕ) (U := UR sig nD τ) (Lvl := ℕ) spec2 c (V c) : sProp 𝕄)
      ⊢ (dat2 V c).arrays ((dat2 V c).arrAt · 0) := by
  rw [arrBufs2_eq, arrays2_eq]
  iintro ⟨H8, H9, H10⟩
  ihave H := (pointsTo_share (PosShare.mem_left_op_right fullShare)).1 $$ H9
  icases H with ⟨Hl, Hr⟩
  isplitl [H8]; · iexact H8
  isplitl [Hl]; · iexact Hl
  isplitl [Hr]; · iexact Hr
  iexact H10

/-- EXIT: the input windows' arrays are as entered, so the shared buffer's two halves, both at the entry contents,
    join to its full share; the output's array is at what the write-backs leave. -/
theorem arrBufs_of_arrays2 (c : Dev nD) :
    ((dat2 V c).arrays ((dat2 V c).arrAt · cfg2.N) : sProp 𝕄)
      ⊢ iprop((((c : Thread nD τ).loc main_v8) ↦{fullShare} V c main_v8) ∗ (((c : Thread nD τ).loc main_v9) ↦{fullShare} V c main_v9)
          ∗ (((c : Thread nD τ).loc main_v10) ↦{fullShare} (dat2 V c).arrAt 3 cfg2.N)) := by
  rw [arrays2_eq, (dat2 V c).arrAt_in 0 rfl, (dat2 V c).arrAt_in 1 rfl, (dat2 V c).arrAt_in 2 rfl]
  iintro ⟨H8, Hl, Hr, H10⟩
  isplitl [H8]; · iexact H8
  isplitl [Hl Hr]
  · iapply (pointsTo_share (PosShare.mem_left_op_right fullShare)).2
    isplitl [Hl]; · iexact Hl
    iexact Hr
  iexact H10

end Shared

/-- A core's unscoped buffers are the three buffers behind the attention region's windows' arrays and the rest. -/
theorem unscopedBufs_split2 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec2 c V ∗ Pipeline.unscopedRest spec2 c V) :=
  Pipeline.unscopedBufs_split₀ cfgs 2 winFacts₀2.arr_unscoped c V

/-- The attention region's ENTRY, over the held buffers: every unscoped buffer at the entry contents is the four
    windows' arrays at those contents and the buffers no window reads. -/
theorem held_split2 (c : Dev nD) :
    (StableHlo.held (c : Thread nD τ) (Pipeline.ucRefs τ sig) (W4 m c) : sProp 𝕄)
      ⊢ iprop((dat2 (V4 m) c).arrays ((dat2 (V4 m) c).arrAt · 0)
          ∗ Pipeline.unscopedRest (Ix := Unit) (Name := ℕ) (U := UR sig nD τ) (Lvl := ℕ) spec2 c (V4 m c)) := by
  rw [← Pipeline.unscopedBufs_held (Ix := Unit) (Name := ℕ) (U := UR sig nD τ) (Lvl := ℕ) c (W4 m c),
    unscopedBufs_split2 c (V4 m c)]
  exact sep_mono (arrays_of_arrBufs2 (V4 m) c) .rfl

/-- The buffers no window of the attention region reads are, at its exit, as at its entry. -/
theorem unscopedRest2_exit (c : Dev nD) :
    (Pipeline.unscopedRest (Ix := Unit) (Name := ℕ) (U := UR sig nD τ) (Lvl := ℕ) spec2 c (V5 m c) : sProp 𝕄)
      = Pipeline.unscopedRest spec2 c (V4 m c) := by
  unfold Pipeline.unscopedRest
  exact bigSep_congr fun b hb => by
    rw [show V5 m c b = V4 m c b from W5_of_ne m c b fun e => (Finset.mem_sdiff.mp hb).2 (by subst e; decide)]

/-- The attention region's EXIT, over the held buffers: the windows' arrays at what the region leaves and the buffers
    no window reads are every unscoped buffer at the last boundary's contents. -/
theorem held_join2 (c : Dev nD) :
    iprop((dat2 (V4 m) c).arrays ((dat2 (V4 m) c).arrAt · cfg2.N)
        ∗ Pipeline.unscopedRest (Ix := Unit) (Name := ℕ) (U := UR sig nD τ) (Lvl := ℕ) spec2 c (V4 m c))
      ⊢ (StableHlo.held (c : Thread nD τ) (Pipeline.ucRefs τ sig) (W5 m c) : sProp 𝕄) := by
  rw [← Pipeline.unscopedBufs_held (Ix := Unit) (Name := ℕ) (U := UR sig nD τ) (Lvl := ℕ) c (W5 m c),
    unscopedBufs_split2 c (V5 m c), arrBufs2_eq, unscopedRest2_exit,
    show V5 m c main_v8 = V4 m c main_v8 from W5_of_ne m c main_v8 (by decide),
    show V5 m c main_v9 = V4 m c main_v9 from W5_of_ne m c main_v9 (by decide),
    show V5 m c main_v10 = (dat2 (V4 m) c).arrAt 3 cfg2.N from W5_out m c]
  exact sep_mono (arrBufs_of_arrays2 (V4 m) c) .rfl

/-! ## The attention region as a segment -/

set_option backward.isDefEq.respectTransparency.types false in
/-- The attention region over the thread state: entered from every unscoped buffer at its entry contents, left with
    them at the last boundary's contents. Its windows' arrays are taken out of the three buffers behind them at the
    entry — the shared one split in halves — and put back at the exit; the generator register passes through the
    invariant; nothing is owed. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := held_split2 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := held_join2 m c
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

/-- The program's five segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m) ]
/-- The program is the run of its segments. -/
theorem main_run (c : Dev nD) : main (F := F) c = Pipeline.Seg.run (segs m) := (main_chain c).trans (by chain_rfl)

set_option backward.isDefEq.respectTransparency.types false in
/-- Every weakly fair execution of the program terminates, nothing faulting, with the result array at the last
    boundary's contents and every argument array as launched. -/
theorem run_out : θ_run defs (onTc (τ := τ) (main (F := F))) ⟨m, fun _ => 0, ρ⟩ (fun r => ∀ c : Dev nD,
      r.2.mem ((c.tc : Thread nD τ).loc main_v10) = W5 m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨h c _ (mem_uc main_v10 (by decide)),
        (h c _ (mem_uc main_arg0 (by decide))).trans (W5_main_arg0 m c),
        (h c _ (mem_uc main_arg1 (by decide))).trans (W5_main_arg1 m c),
        (h c _ (mem_uc main_arg2 (by decide))).trans (W5_main_arg2 m c),
        (h c _ (mem_uc main_arg3 (by decide))).trans (W5_main_arg3 m c),
        (h c _ (mem_uc main_arg4 (by decide))).trans (W5_main_arg4 m c),
        (h c _ (mem_uc main_arg5 (by decide))).trans (W5_main_arg5 m c),
        (h c _ (mem_uc main_arg6 (by decide))).trans (W5_main_arg6 m c),
        (h c _ (mem_uc main_arg7 (by decide))).trans (W5_main_arg7 m c)⟩)

end Cert.KernelIdeal.Hand

end
-- ==== Proof.Spec.lean ====
/-
  The mathematics both programs compute: multi-head attention over a batch of 4 sequences of length 1024,
  model width 1024 = 16 heads of width 64.

  A projection of a token is a row of the input times a weight matrix plus a bias. For one batch entry and one
  head, with q, k, v the head's 64 columns of the three projections, a score is the inner product of a query
  row and a key row times 1/8; a row's weights are the exponentials of its scores less the row's maximum; the
  result is the weights' combination of the value rows, normalised by the weights' sum.

  The two programs differ in WHERE the normalisation sits: the kernel divides the weighted sum of value rows by
  the weights' sum (`attnLate`), the reference divides each weight first (`attnEarly`). On finite inputs every
  weight is a positive real and so is their sum, and division by it distributes over the sum.
-/
import Idealize.ShloMosaic.PureOps.Ideal
import Idealize.ShloMosaic.Lib.ValueIdx

noncomputable section

open scoped BigOperators

namespace Cert.Spec

open Idealize.ShloMosaic Idealize.ShloMosaic.ValueIdx

/-- A batch of sequences: [4, 1024, 1024]. -/
abbrev Tok : Type := (⟨3, ![4, 1024, 1024]⟩ : Shape).Idx → EReal
/-- A weight matrix: [1024, 1024]. -/
abbrev Mat : Type := (⟨2, ![1024, 1024]⟩ : Shape).Idx → EReal
/-- A bias: [1024]. -/
abbrev Bias : Type := (⟨1, ![1024]⟩ : Shape).Idx → EReal

/-- Every entry is a real number (neither infinity). -/
def IsReal {ι : Type} (x : ι → EReal) : Prop := ∀ i, ∃ r : ℝ, x i = (r : EReal)

/-- Column `n` of the projection of token `s` of batch entry `b`: the row times the matrix, plus the bias. -/
def proj (x : Tok) (w : Mat) (bias : Bias) (b : Fin 4) (s : Fin 1024) (n : Fin 1024) : EReal :=
  (∑ k : Fin 1024, x (ix3 b s k) * w (ix2 k n)) + bias (ix1 n)

/-- The scores' scale, 1/8 (the reciprocal square root of the head width), as the literal both programs carry. -/
def scale : EReal := Ideal.ofBits .f32 0x3E000000#32
/-- What a row's maximum starts from: the pattern of minus infinity. -/
def negInf : EReal := Ideal.ofBits .f32 0xFF800000#32

/-- Column `d` of head `h` among the 1024 model columns. -/
def col (h : Fin 16) (d : Fin 64) : Fin 1024 := ⟨h.val * 64 + d.val, by omega⟩
/-- The head a model column belongs to, and its place inside the head. -/
def headOf (n : Fin 1024) : Fin 16 := ⟨n.val / 64, by omega⟩
def within (n : Fin 1024) : Fin 64 := ⟨n.val % 64, by omega⟩

/-- The 64 columns of head `h` of a projection. -/
def head (p : Fin 1024 → Fin 1024 → EReal) (h : Fin 16) : Fin 1024 → Fin 64 → EReal := fun s d => p s (col h d)

section Head

variable (q k v : Fin 1024 → Fin 64 → EReal)

/-- Query row `i` against key row `j`, scaled. -/
def score (i j : Fin 1024) : EReal := (∑ d : Fin 64, q i d * k j d) * scale
/-- The largest score of query row `i`. -/
def rowMax (i : Fin 1024) : EReal := (Finset.univ : Finset (Fin 1024)).fold max negInf (score q k i)
/-- The unnormalised weight of key `j` for query `i`. -/
def weight (i j : Fin 1024) : EReal := Ideal.exp (score q k i j - rowMax q k i)
/-- The weights' sum over the keys. -/
def denom (i : Fin 1024) : EReal := ∑ j : Fin 1024, weight q k i j
/-- Normalised after the combination of the value rows. -/
def attnLate (i : Fin 1024) (d : Fin 64) : EReal := Ideal.div (∑ j : Fin 1024, weight q k i j * v j d) (denom q k i)
/-- Normalised before it. -/
def attnEarly (i : Fin 1024) (d : Fin 64) : EReal := ∑ j : Fin 1024, Ideal.div (weight q k i j) (denom q k i) * v j d

end Head

/-- The whole result with the late normalisation, at [batch, token, column]. -/
def kernelOut (x y : Tok) (wq : Mat) (bq : Bias) (wk : Mat) (bk : Bias) (wv : Mat) (bv : Bias) : Tok := fun j =>
  attnLate (head (proj x wq bq (j 0)) (headOf (j 2))) (head (proj y wk bk (j 0)) (headOf (j 2)))
    (head (proj y wv bv (j 0)) (headOf (j 2))) (j 1) (within (j 2))

/-- The whole result with the early normalisation. -/
def refOut (x y : Tok) (wq : Mat) (bq : Bias) (wk : Mat) (bk : Bias) (wv : Mat) (bv : Bias) : Tok := fun j =>
  attnEarly (head (proj x wq bq (j 0)) (headOf (j 2))) (head (proj y wk bk (j 0)) (headOf (j 2)))
    (head (proj y wv bv (j 0)) (headOf (j 2))) (j 1) (within (j 2))

end Cert.Spec

end
-- ==== Proof.KI.Val0.lean ====
/-
  What the first projection's region leaves in its output array, at the ideal instance: entry [r, n] is row r of
  the region's input times column n of the weights, plus the bias at n. Each of the 8 grid points writes back a
  block of 512 rows; block t is rows 512 t … 512 t + 511, and the 8 blocks cover the 4096 rows.
-/
import proofs.«430604_j26903675142357_3_alg».proof.Proof.KI.Reg0
import proofs.«430604_j26903675142357_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The product's operand indices, axis by axis -/

theorem lhsAx0_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhsAx0_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhsAx0_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhsAx0_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into the zero accumulator, entry by entry: row p of the left operand times column q of the right. -/
theorem matmul0_apply (a : FVec Ideal S512x1024 .bf16) (b : FVec Ideal S1024x1024 .bf16) (p : Fin 512) (q : Fin 1024) :
    matmul (F := Ideal) dot_S512x1024_S1024x1024_S512x1024_1_0_0_1_n_n none a b (constant (F := Ideal) S512x1024 .f32 0x00000000#32) (ix2 p q)
      = ∑ k : Fin 1024, a (ix2 p k) * b (ix2 k q) := by
  refine (Ideal.matmul_constant_zero_apply dot_S512x1024_S1024x1024_S512x1024_1_0_0_1_n_n none a b (ix2 p q)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhsAx0_0 _ _
    | ⟨1, _⟩ => exact (lhsAx0_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhsAx0_0 _ _).trans hk
    | ⟨1, _⟩ => exact rhsAx0_1 _ _)
  rw [el, er]

/-- The bias, viewed as one row and repeated down the 512 rows, reads its entry of the column. -/
theorem biasRows0_apply (x2 : Vec Ideal S1024 .f32) (p : Fin 512) (q : Fin 1024) :
    broadcastTo S512x1024 (shapeCast S1x1024 x2 shapeCasts_S1024_S1x1024) broadcasts_S1x1024_S512x1024 (ix2 p q) = x2 (ix1 q) := by
  refine (broadcastTo_apply _ broadcasts_S1x1024_S512x1024 (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])).trans ?_
  exact shapeCast_apply x2 shapeCasts_S1024_S1x1024 (ix2 (0 : Fin 1) q) (ix1 q)
    (by rewrite [Shape.rowMajor_val_one, Shape.rowMajor_val_two]; show q.val = 0 * 1024 + q.val; omega)

/-- The body's payload, entry by entry. -/
theorem pay0_apply (x0 : Vec Ideal S512x1024 .f32) (x1 : Vec Ideal S1024x1024 .bf16) (x2 : Vec Ideal S1024 .f32) (p : Fin 512) (q : Fin 1024) :
    k0_pay1 x0 x1 x2 (ix2 p q) = (∑ k : Fin 1024, x0 (ix2 p k) * x1 (ix2 k q)) + x2 (ix1 q) := by
  unfold k0_pay1
  rw [shapeCast_self, shapeCast_self]
  show matmul (F := Ideal) dot_S512x1024_S1024x1024_S512x1024_1_0_0_1_n_n none (truncf .bf16 x0 bitsLt_bf16_f32) x1 (constant (F := Ideal) S512x1024 .f32 0x00000000#32) (ix2 p q)
      + broadcastTo S512x1024 (shapeCast S1x1024 x2 shapeCasts_S1024_S1x1024) broadcasts_S1x1024_S512x1024 (ix2 p q) = _
  rw [matmul0_apply, biasRows0_apply]
  rfl

variable (V : (c : Dev nD) → (b : Ref sig .tc) → Buf (Elt Ideal) ((c : Thread nD τ).loc b))

/-- The region's arrays at its entry and its output array after it, as arrays of extended reals. -/
abbrev rows0 (c : Dev nD) : S4096x1024.Idx → EReal := V c main_v0
abbrev wts0 (c : Dev nD) : S1024x1024.Idx → EReal := V c main_v2
abbrev bias0 (c : Dev nD) : S1024.Idx → EReal := V c main_arg3
abbrev outArr0 (c : Dev nD) : S4096x1024.Idx → EReal := (dat0 (F := Ideal) V c).arrAt 3 cfg0.N

/-! ## The blocks the body is handed -/

theorem zeros2_0 : (![0, 0] : Fin 2 → Nat) = fun _ => 0 := funext fun a => by fin_cases a <;> rfl
theorem zeros1_0 : (![0] : Fin 1 → Nat) = fun _ => 0 := funext fun a => by fin_cases a <;> rfl

/-- The printed index maps over the grid: the rows' block moves with the output's, the weights and the bias sit at
    block 0, the output's block index is the grid point (one of 8) on the rows and 0 on the columns. -/
theorem blockIdx0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 7 :=
  (by decide +kernel : ∀ t : Fin grid0.N, _)

/-- Every one of the 8 row blocks is some point's. -/
theorem blockOnto0 : ∀ q0 : Fin 8, ∃ t : Fin cfg0.N, win0_3.index t = ![q0.val, 0] :=
  (by decide +kernel : ∀ q0 : Fin 8, ∃ t : Fin grid0.N, win0_3.index t = ![q0.val, 0])

/-- The rows' block at point t is rows 512·(block index) … of the input. -/
theorem rowsBlk0_apply (c : Dev nD) (t : Fin cfg0.N) (p : Fin 512) (k : Fin 1024) (r : Fin 4096)
    (hr : r.val = win0_3.index t (0 : Fin 2) * 512 + p.val) :
    (iblk0 V c 0 t : Vec Ideal S512x1024 .f32) (ix2 p k) = rows0 V c (ix2 r k) := by
  obtain ⟨e0, e1, -⟩ := blockIdx0 t
  unfold iblk0
  rw [View.read_apply]
  show V c main_v0 _ = V c main_v0 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- The weights' block is the whole matrix. -/
theorem wtsBlk0_apply (c : Dev nD) (t : Fin cfg0.N) (k : Fin 1024) (q : Fin 1024) :
    (iblk0 V c 1 t : Vec Ideal S1024x1024 .bf16) (ix2 k q) = wts0 V c (ix2 k q) := by
  obtain ⟨-, -, e2, e3, -⟩ := blockIdx0 t
  unfold iblk0
  rw [View.read_apply]
  show V c main_v2 _ = V c main_v2 _
  congr 1
  funext a
  apply Fin.ext
  match a with
  | ⟨0, _⟩ => show win0_1.index t (0 : Fin 2) * 1024 + 1 * k.val = k.val; rw [e2]; omega
  | ⟨1, _⟩ => show win0_1.index t (1 : Fin 2) * 1024 + 1 * q.val = q.val; rw [e3]; omega

/-- The bias's block is the whole vector. -/
theorem biasBlk0_apply (c : Dev nD) (t : Fin cfg0.N) (q : Fin 1024) :
    (iblk0 V c 2 t : Vec Ideal S1024 .f32) (ix1 q) = bias0 V c (ix1 q) := by
  obtain ⟨-, -, -, -, e4, -⟩ := blockIdx0 t
  unfold iblk0
  rw [View.read_apply]
  show V c main_arg3 _ = V c main_arg3 _
  congr 1
  funext a
  apply Fin.ext
  match a with
  | ⟨0, _⟩ => show win0_2.index t (0 : Fin 1) * 1024 + 1 * q.val = q.val; rw [e4]; omega

/-! ## From the blocks to the array -/

/-- The product of the rows with the weights plus the bias, as one array. -/
def proj0 (c : Dev nD) : S4096x1024.Idx → Elt Ideal .bf16 := fun i =>
  (∑ k : Fin 1024, rows0 V c (ix2 (i 0) k) * wts0 V c (ix2 k (i 1))) + bias0 V c (ix1 (i 1))

/-- The body's result from the blocks at point t, entry by entry, is that array at the entry's place in block t:
    row 512·(block index) + p, column q. -/
theorem out0_at (c : Dev nD) (t : Fin cfg0.N) (j : S512x1024.Idx) :
    k0_pay1 (iblk0 V c 0 t) (iblk0 V c 1 t) (iblk0 V c 2 t) j = proj0 V c (((cfg0.win 3).blk t).view.emb j) := by
  obtain ⟨-, -, -, -, -, e5, e6⟩ := blockIdx0 t
  obtain ⟨p, q, rfl⟩ : ∃ p q, j = ix2 p q := ⟨j 0, j 1, eq_ix2 j⟩
  have hp : p.val < 512 := p.isLt
  have hemb : ((cfg0.win 3).blk t).view.emb (ix2 p q)
      = (ix2 (⟨win0_3.index t (0 : Fin 2) * 512 + p.val, by omega⟩ : Fin 4096) q : S4096x1024.Idx) := by
    funext a
    apply Fin.ext
    match a with
    | ⟨0, _⟩ => show win0_3.index t (0 : Fin 2) * 512 + 1 * p.val = win0_3.index t (0 : Fin 2) * 512 + p.val; omega
    | ⟨1, _⟩ => show win0_3.index t (1 : Fin 2) * 1024 + 1 * q.val = q.val; rw [e5]; omega
  refine (pay0_apply _ _ _ p q).trans ?_
  rw [hemb]
  exact congrArg₂ (· + ·)
    (Finset.sum_congr rfl fun k _ => congrArg₂ (· * ·) (rowsBlk0_apply V c t p k _ rfl) (wtsBlk0_apply V c t k q))
    (biasBlk0_apply V c t q)

/-- What point t writes back is block t of that array. -/
theorem flushed0_eq (c : Dev nD) (t : Fin cfg0.N) :
    (dat0 V c).flushed 3 t = ((cfg0.win 3).blk t).view.read (Elt Ideal) (proj0 V c) := by
  show (cfg0.win 3).cut (grid0.coords t) ((dat0 V c).after 3 t) = _
  rw [after0_3]
  unfold out0_3
  rw [View.canon_unit_zero zeros2_0]
  simp only [View.ld_unit_zero (S := S512x1024) zeros2_0, View.ld_unit_zero (S := S1024x1024) zeros2_0, View.ld_unit_zero (S := S1024) zeros1_0]
  funext j
  exact out0_at V c t j

/-- An index of the output array is in point t's block iff each coordinate is in the block's range on its axis. -/
theorem mem_outBlk0 (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v6).slice (win0_3.rect t)).set ↔ _
  rw [View.set_slice_whole, Rect.mem_set_unit]
  exact Iff.rfl

/-- The 8 blocks of 512 rows cover the 4096 rows: row r is in the block of point r / 512. -/
theorem cover0 (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ := blockOnto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_outBlk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The output array after the region is that array. -/
theorem outArr0_eq (c : Dev nD) : outArr0 V c = proj0 V c :=
  (dat0 V c).arrAt_eq_of_cover 3 (proj0 V c) (fun t _ => flushed0_eq V c t) cover0

/-- The output array after the region, entry by entry. -/
theorem arr0 (c : Dev nD) (r : Fin 4096) (n : Fin 1024) :
    outArr0 V c (ix2 r n) = (∑ k : Fin 1024, rows0 V c (ix2 r k) * wts0 V c (ix2 k n)) + bias0 V c (ix1 n) := by
  rw [outArr0_eq]
  rfl

end Cert.KernelIdeal.Hand

end
-- ==== Proof.KI.Val1.lean ====
/-
  What the second projection's region leaves in its output array, at the ideal instance: entry [r, n] is row r
  of the region's input times column n of the keys' and values' weights side by side, plus the bias at n. Each of
  the 8 grid points writes back a block of 512 rows; block t is rows 512 t … 512 t + 511, and the 8 blocks cover
  the 4096 rows.
-/
import proofs.«430604_j26903675142357_3_alg».proof.Proof.KI.Reg1
import proofs.«430604_j26903675142357_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The product's operand indices, axis by axis -/

theorem lhsAx1_0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem lhsAx1_1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
theorem rhsAx1_0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
theorem rhsAx1_1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- The product into the zero accumulator, entry by entry: row p of the left operand times column q of the right. -/
theorem matmul1_apply (a : FVec Ideal S512x1024 .bf16) (b : FVec Ideal S1024x2048 .bf16) (p : Fin 512) (q : Fin 2048) :
    matmul (F := Ideal) dot_S512x1024_S1024x2048_S512x2048_1_0_0_1_n_n none a b (constant (F := Ideal) S512x2048 .f32 0x00000000#32) (ix2 p q)
      = ∑ k : Fin 1024, a (ix2 p k) * b (ix2 k q) := by
  refine (Ideal.matmul_constant_zero_apply dot_S512x1024_S1024x2048_S512x2048_1_0_0_1_n_n none a b (ix2 p q)).trans ?_
  rw [← Equiv.sum_comp (ValueIdx.contrEquiv1 dot_S512x1024_S1024x2048_S512x2048_1_0_0_1_n_n 1024 rfl rfl).symm]
  refine Finset.sum_congr rfl fun k _ => ?_
  have hk := ValueIdx.contrEquiv1_symm_val dot_S512x1024_S1024x2048_S512x2048_1_0_0_1_n_n 1024 rfl rfl k
  have el : dot_S512x1024_S1024x2048_S512x2048_1_0_0_1_n_n.lhsIdx (ix2 p q) ((ValueIdx.contrEquiv1 dot_S512x1024_S1024x2048_S512x2048_1_0_0_1_n_n 1024 rfl rfl).symm k) = ix2 p k := funext fun a => Fin.ext (by
    match a with
    | ⟨0, _⟩ => exact lhsAx1_0 _ _
    | ⟨1, _⟩ => exact (lhsAx1_1 _ _).trans hk)
  have er : dot_S512x1024_S1024x2048_S512x2048_1_0_0_1_n_n.rhsIdx (ix2 p q) ((ValueIdx.contrEquiv1 dot_S512x1024_S1024x2048_S512x2048_1_0_0_1_n_n 1024 rfl rfl).symm k) = ix2 k q := funext fun a => Fin.ext (by
    match a with
    | ⟨0, _⟩ => exact (rhsAx1_0 _ _).trans hk
    | ⟨1, _⟩ => exact rhsAx1_1 _ _)
  rw [el, er]

/-- The bias, viewed as one row and repeated down the 512 rows, reads its entry of the column. -/
theorem biasRows1_apply (x2 : Vec Ideal S2048 .f32) (p : Fin 512) (q : Fin 2048) :
    broadcastTo S512x2048 (shapeCast S1x2048 x2 shapeCasts_S2048_S1x2048) broadcasts_S1x2048_S512x2048 (ix2 p q) = x2 (ix1 q) := by
  refine (broadcastTo_apply _ broadcasts_S1x2048_S512x2048 (ix2 p q) (ix2 (0 : Fin 1) q) (fun a => match a with
    | ⟨0, _⟩ => by show 0 = if (1 : Nat) = 1 then 0 else p.val; rw [if_pos rfl]
    | ⟨1, _⟩ => by show q.val = if (2048 : Nat) = 1 then 0 else q.val; rw [if_neg (by decide)])).trans ?_
  exact shapeCast_apply x2 shapeCasts_S2048_S1x2048 (ix2 (0 : Fin 1) q) (ix1 q)
    (by rewrite [Shape.rowMajor_val_one, Shape.rowMajor_val_two]; show q.val = 0 * 2048 + q.val; omega)

/-- The body's payload, entry by entry. -/
theorem pay1_apply (x0 : Vec Ideal S512x1024 .f32) (x1 : Vec Ideal S1024x2048 .bf16) (x2 : Vec Ideal S2048 .f32) (p : Fin 512) (q : Fin 2048) :
    k1_pay1 x0 x1 x2 (ix2 p q) = (∑ k : Fin 1024, x0 (ix2 p k) * x1 (ix2 k q)) + x2 (ix1 q) := by
  unfold k1_pay1
  rw [shapeCast_self, shapeCast_self, shapeCast_self]
  show matmul (F := Ideal) dot_S512x1024_S1024x2048_S512x2048_1_0_0_1_n_n none (truncf .bf16 x0 bitsLt_bf16_f32) x1 (constant (F := Ideal) S512x2048 .f32 0x00000000#32) (ix2 p q)
      + broadcastTo S512x2048 (shapeCast S1x2048 x2 shapeCasts_S2048_S1x2048) broadcasts_S1x2048_S512x2048 (ix2 p q) = _
  rw [matmul1_apply, biasRows1_apply]
  rfl

variable (V : (c : Dev nD) → (b : Ref sig .tc) → Buf (Elt Ideal) ((c : Thread nD τ).loc b))

/-- The region's arrays at its entry and its output array after it, as arrays of extended reals. -/
abbrev rows1 (c : Dev nD) : S4096x1024.Idx → EReal := V c main_v1
abbrev wts1 (c : Dev nD) : S1024x2048.Idx → EReal := V c main_v4
abbrev bias1 (c : Dev nD) : S2048.Idx → EReal := V c main_v5
abbrev outArr1 (c : Dev nD) : S4096x2048.Idx → EReal := (dat1 (F := Ideal) V c).arrAt 3 cfg1.N

/-! ## The blocks the body is handed -/

theorem zeros2_1 : (![0, 0] : Fin 2 → Nat) = fun _ => 0 := funext fun a => by fin_cases a <;> rfl
theorem zeros1_1 : (![0] : Fin 1 → Nat) = fun _ => 0 := funext fun a => by fin_cases a <;> rfl

/-- The printed index maps over the grid: the rows' block moves with the output's, the weights and the bias sit at
    block 0, the output's block index is the grid point (one of 8) on the rows and 0 on the columns. -/
theorem blockIdx1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 1) = 0
    ∧ win1_3.index t (1 : Fin 2) = 0 ∧ win1_3.index t (0 : Fin 2) ≤ 7 :=
  (by decide +kernel : ∀ t : Fin grid1.N, _)

/-- Every one of the 8 row blocks is some point's. -/
theorem blockOnto1 : ∀ q0 : Fin 8, ∃ t : Fin cfg1.N, win1_3.index t = ![q0.val, 0] :=
  (by decide +kernel : ∀ q0 : Fin 8, ∃ t : Fin grid1.N, win1_3.index t = ![q0.val, 0])

/-- The rows' block at point t is rows 512·(block index) … of the input. -/
theorem rowsBlk1_apply (c : Dev nD) (t : Fin cfg1.N) (p : Fin 512) (k : Fin 1024) (r : Fin 4096)
    (hr : r.val = win1_3.index t (0 : Fin 2) * 512 + p.val) :
    (iblk1 V c 0 t : Vec Ideal S512x1024 .f32) (ix2 p k) = rows1 V c (ix2 r k) := by
  obtain ⟨e0, e1, -⟩ := blockIdx1 t
  unfold iblk1
  rw [View.read_apply]
  show V c main_v1 _ = V c main_v1 _
  congr 1
  funext a
  apply Fin.ext
  match a with
  | ⟨0, _⟩ => show win1_0.index t (0 : Fin 2) * 512 + 1 * p.val = r.val; rw [e0, hr]; omega
  | ⟨1, _⟩ => show win1_0.index t (1 : Fin 2) * 1024 + 1 * k.val = k.val; rw [e1]; omega

/-- The weights' block is the whole matrix. -/
theorem wtsBlk1_apply (c : Dev nD) (t : Fin cfg1.N) (k : Fin 1024) (q : Fin 2048) :
    (iblk1 V c 1 t : Vec Ideal S1024x2048 .bf16) (ix2 k q) = wts1 V c (ix2 k q) := by
  obtain ⟨-, -, e2, e3, -⟩ := blockIdx1 t
  unfold iblk1
  rw [View.read_apply]
  show V c main_v4 _ = V c main_v4 _
  congr 1
  funext a
  apply Fin.ext
  match a with
  | ⟨0, _⟩ => show win1_1.index t (0 : Fin 2) * 1024 + 1 * k.val = k.val; rw [e2]; omega
  | ⟨1, _⟩ => show win1_1.index t (1 : Fin 2) * 2048 + 1 * q.val = q.val; rw [e3]; omega

/-- The bias's block is the whole vector. -/
theorem biasBlk1_apply (c : Dev nD) (t : Fin cfg1.N) (q : Fin 2048) :
    (iblk1 V c 2 t : Vec Ideal S2048 .f32) (ix1 q) = bias1 V c (ix1 q) := by
  obtain ⟨-, -, -, -, e4, -⟩ := blockIdx1 t
  unfold iblk1
  rw [View.read_apply]
  show V c main_v5 _ = V c main_v5 _
  congr 1
  funext a
  apply Fin.ext
  match a with
  | ⟨0, _⟩ => show win1_2.index t (0 : Fin 1) * 2048 + 1 * q.val = q.val; rw [e4]; omega

/-! ## From the blocks to the array -/

/-- The product of the rows with the weights plus the bias, as one array. -/
def proj1 (c : Dev nD) : S4096x2048.Idx → Elt Ideal .bf16 := fun i =>
  (∑ k : Fin 1024, rows1 V c (ix2 (i 0) k) * wts1 V c (ix2 k (i 1))) + bias1 V c (ix1 (i 1))

/-- The body's result from the blocks at point t, entry by entry, is that array at the entry's place in block t:
    row 512·(block index) + p, column q. -/
theorem out1_at (c : Dev nD) (t : Fin cfg1.N) (j : S512x2048.Idx) :
    k1_pay1 (iblk1 V c 0 t) (iblk1 V c 1 t) (iblk1 V c 2 t) j = proj1 V c (((cfg1.win 3).blk t).view.emb j) := by
  obtain ⟨-, -, -, -, -, e5, e6⟩ := blockIdx1 t
  obtain ⟨p, q, rfl⟩ : ∃ p q, j = ix2 p q := ⟨j 0, j 1, eq_ix2 j⟩
  have hp : p.val < 512 := p.isLt
  have hemb : ((cfg1.win 3).blk t).view.emb (ix2 p q)
      = (ix2 (⟨win1_3.index t (0 : Fin 2) * 512 + p.val, by omega⟩ : Fin 4096) q : S4096x2048.Idx) := by
    funext a
    apply Fin.ext
    match a with
    | ⟨0, _⟩ => show win1_3.index t (0 : Fin 2) * 512 + 1 * p.val = win1_3.index t (0 : Fin 2) * 512 + p.val; omega
    | ⟨1, _⟩ => show win1_3.index t (1 : Fin 2) * 2048 + 1 * q.val = q.val; rw [e5]; omega
  refine (pay1_apply _ _ _ p q).trans ?_
  rw [hemb]
  exact congrArg₂ (· + ·)
    (Finset.sum_congr rfl fun k _ => congrArg₂ (· * ·) (rowsBlk1_apply V c t p k _ rfl) (wtsBlk1_apply V c t k q))
    (biasBlk1_apply V c t q)

/-- What point t writes back is block t of that array. -/
theorem flushed1_eq (c : Dev nD) (t : Fin cfg1.N) :
    (dat1 V c).flushed 3 t = ((cfg1.win 3).blk t).view.read (Elt Ideal) (proj1 V c) := by
  show (cfg1.win 3).cut (grid1.coords t) ((dat1 V c).after 3 t) = _
  rw [after1_3]
  unfold out1_3
  rw [View.canon_unit_zero zeros2_1]
  simp only [View.ld_unit_zero (S := S512x1024) zeros2_1, View.ld_unit_zero (S := S1024x2048) zeros2_1, View.ld_unit_zero (S := S2048) zeros1_1]
  funext j
  exact out1_at V c t j

/-- An index of the output array is in point t's block iff each coordinate is in the block's range on its axis. -/
theorem mem_outBlk1 (t : Fin cfg1.N) (i : S4096x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v7).slice (win1_3.rect t)).set ↔ _
  rw [View.set_slice_whole, Rect.mem_set_unit]
  exact Iff.rfl

/-- The 8 blocks of 512 rows cover the 4096 rows: row r is in the block of point r / 512. -/
theorem cover1 (i : S4096x2048.Idx) : ∃ t : Fin cfg1.N, (cfg1.win 3).flush t = true ∧ i ∈ ((cfg1.win 3).blk t).view.set := by
  have hi0 : (i 0).val < 4096 := (i 0).isLt
  have hi1 : (i 1).val < 2048 := (i 1).isLt
  obtain ⟨t, ht⟩ := blockOnto1 ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_outBlk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

/-- The output array after the region is that array. -/
theorem outArr1_eq (c : Dev nD) : outArr1 V c = proj1 V c :=
  (dat1 V c).arrAt_eq_of_cover 3 (proj1 V c) (fun t _ => flushed1_eq V c t) cover1

/-- The output array after the region, entry by entry. -/
theorem arr1 (c : Dev nD) (r : Fin 4096) (n : Fin 2048) :
    outArr1 V c (ix2 r n) = (∑ k : Fin 1024, rows1 V c (ix2 r k) * wts1 V c (ix2 k n)) + bias1 V c (ix1 n) := by
  rw [outArr1_eq]
  rfl

end Cert.KernelIdeal.Hand

end
-- ==== Proof.KI.Val2.lean ====
/-
  What the attention region leaves in its result array, at the ideal instance: entry [b, s, n] is the
  late-normalised attention of batch entry b for the head of column n, at query s and the column's place in the
  head — the queries read off the first array, the keys off the first 1024 columns of the second and the values
  off its last 1024. Grid point (b, p) writes back the block of batch entry b, all 1024 tokens, columns
  128 p … 128 p + 127 (heads 2 p and 2 p + 1); the 32 blocks cover the array.
-/
import proofs.«430604_j26903675142357_3_alg».proof.Proof.KI.Reg2
import proofs.«430604_j26903675142357_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Column `d` of head `h` among the keys (the first 1024 of the 2048 columns) and among the values (the last). -/
def kcol (h : Fin 16) (d : Fin 64) : Fin 2048 := ⟨h.val * 64 + d.val, by omega⟩
def vcol (h : Fin 16) (d : Fin 64) : Fin 2048 := ⟨1024 + h.val * 64 + d.val, by omega⟩

/-! ## The two products read at an index -/

theorem lhs_qk_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhs_qk_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs_qk_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhs_qk_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- A query block times a key block transposed, into the zero accumulator: entry (i, j) is the inner product of
    query row i and key row j. -/
theorem matmul_qk_apply (a b : FVec Ideal S1024x64 .bf16) (i j : Fin 1024) :
    matmul dot_S1024x64_S1024x64_S1024x1024_1_1_0_0_n_n none a b (constant (F := Ideal) S1024x1024 .f32 0x00000000#32) (ix2 i j)
      = ∑ d : Fin 64, a (ix2 i d) * b (ix2 j d) := by
  simp only [matmul]
  rw [Ideal.matmul_constant_zero_apply, ← Equiv.sum_comp (ValueIdx.contrEquiv1 dot_S1024x64_S1024x64_S1024x1024_1_1_0_0_n_n 64 rfl rfl).symm]
  refine Finset.sum_congr rfl fun k _ => ?_
  have hk := ValueIdx.contrEquiv1_symm_val dot_S1024x64_S1024x64_S1024x1024_1_1_0_0_n_n 64 rfl rfl k
  have el : dot_S1024x64_S1024x64_S1024x1024_1_1_0_0_n_n.lhsIdx (ix2 i j) ((ValueIdx.contrEquiv1 dot_S1024x64_S1024x64_S1024x1024_1_1_0_0_n_n 64 rfl rfl).symm k) = ix2 i k := funext fun a => Fin.ext (by
    match a with
    | ⟨0, _⟩ => exact lhs_qk_0 _ _
    | ⟨1, _⟩ => exact (lhs_qk_1 _ _).trans hk)
  have er : dot_S1024x64_S1024x64_S1024x1024_1_1_0_0_n_n.rhsIdx (ix2 i j) ((ValueIdx.contrEquiv1 dot_S1024x64_S1024x64_S1024x1024_1_1_0_0_n_n 64 rfl rfl).symm k) = ix2 j k := funext fun a => Fin.ext (by
    match a with
    | ⟨0, _⟩ => exact rhs_qk_0 _ _
    | ⟨1, _⟩ => exact (rhs_qk_1 _ _).trans hk)
  rw [el, er]

theorem lhs_pv_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_pv_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_pv_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_pv_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The weights times a value block, into the zero accumulator: entry (i, d) is the weights' combination of the
    value rows' column d. -/
theorem matmul_pv_apply (a : FVec Ideal S1024x1024 .bf16) (b : FVec Ideal S1024x64 .bf16) (i : Fin 1024) (d : Fin 64) :
    matmul dot_S1024x1024_S1024x64_S1024x64_1_0_0_1_n_n none a b (constant (F := Ideal) S1024x64 .f32 0x00000000#32) (ix2 i d)
      = ∑ j : Fin 1024, a (ix2 i j) * b (ix2 j d) := by
  simp only [matmul]
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 i d) ((ValueIdx.contrEquiv1 dot_S1024x1024_S1024x64_S1024x64_1_0_0_1_n_n 1024 rfl rfl).symm k) = ix2 i k := funext fun a => Fin.ext (by
    match a with
    | ⟨0, _⟩ => exact lhs_pv_0 _ _
    | ⟨1, _⟩ => exact (lhs_pv_1 _ _).trans hk)
  have er : dot_S1024x1024_S1024x64_S1024x64_1_0_0_1_n_n.rhsIdx (ix2 i d) ((ValueIdx.contrEquiv1 dot_S1024x1024_S1024x64_S1024x64_1_0_0_1_n_n 1024 rfl rfl).symm k) = ix2 k d := funext fun a => Fin.ext (by
    match a with
    | ⟨0, _⟩ => exact (rhs_pv_0 _ _).trans hk
    | ⟨1, _⟩ => exact rhs_pv_1 _ _)
  rw [el, er]

/-! ## The layout operations of a head, read at an index -/

/-- A [1, 1024, 64] block seen as a [1024, 64] matrix: entry (i, d) is the block's (0, i, d). -/
theorem dropUnit_apply {α : Type} (x : S1x1024x64.Idx → α) (i : Fin 1024) (d : Fin 64) :
    shapeCast S1024x64 x shapeCasts_S1x1024x64_S1024x64 (ix2 i d) = x (ix3 0 i d) :=
  shapeCast_apply x shapeCasts_S1x1024x64_S1024x64 (ix2 i d) (ix3 0 i d) (by
    rw [Shape.rowMajor_val_three, Shape.rowMajor_val_two]
    show ((0 : Nat) * 1024 + i.val) * 64 + d.val = i.val * 64 + d.val
    omega)

/-- A vector of 1024 row values made a column and spread over 1024 lanes: entry (i, j) is the row's value. -/
theorem colBroadcast1024_apply {α : Type} (v : S1024.Idx → α) (i j : Fin 1024) :
    broadcastTo S1024x1024 (shapeCast S1024x1 v shapeCasts_S1024_S1024x1) broadcasts_S1024x1_S1024x1024 (ix2 i j) = v (ix1 i) := by
  refine (broadcastTo_apply _ broadcasts_S1024x1_S1024x1024 (ix2 i j) (ix2 i (0 : Fin 1)) (fun a => ?_)).trans ?_
  · match a with
    | ⟨0, _⟩ => show i.val = if (1024 : Nat) = 1 then 0 else i.val; rw [if_neg (by decide)]
    | ⟨1, _⟩ => show (0 : Nat) = if (1 : Nat) = 1 then 0 else j.val; rw [if_pos rfl]
  · exact shapeCast_apply v shapeCasts_S1024_S1024x1 (ix2 i (0 : Fin 1)) (ix1 i) (by
      rw [Shape.rowMajor_val_one, Shape.rowMajor_val_two]
      show i.val = i.val * 1 + 0
      omega)

/-- The same column spread over 64 lanes. -/
theorem colBroadcast64_apply {α : Type} (v : S1024.Idx → α) (i : Fin 1024) (d : Fin 64) :
    broadcastTo S1024x64 (shapeCast S1024x1 v shapeCasts_S1024_S1024x1) broadcasts_S1024x1_S1024x64 (ix2 i d) = v (ix1 i) := by
  refine (broadcastTo_apply _ broadcasts_S1024x1_S1024x64 (ix2 i d) (ix2 i (0 : Fin 1)) (fun a => ?_)).trans ?_
  · match a with
    | ⟨0, _⟩ => show i.val = if (1024 : Nat) = 1 then 0 else i.val; rw [if_neg (by decide)]
    | ⟨1, _⟩ => show (0 : Nat) = if (1 : Nat) = 1 then 0 else d.val; rw [if_pos rfl]
  · exact shapeCast_apply v shapeCasts_S1024_S1024x1 (ix2 i (0 : Fin 1)) (ix1 i) (by
      rw [Shape.rowMajor_val_one, Shape.rowMajor_val_two]
      show i.val = i.val * 1 + 0
      omega)

/-- The index a row's lane reduction visits at lane k is (row, k). -/
theorem lift_row (i k : Fin 1024) : reduces_S1024x1024_S1024.lift (ix1 i) k = ix2 i k := by
  funext a; apply Fin.ext
  match a with
  | ⟨0, _⟩ => rfl
  | ⟨1, _⟩ => rfl

/-- A lane sum of a [1024, 1024] matrix at row i is the sum of the row. -/
theorem rowSum_apply (src : FVec Ideal S1024x1024 .f32) (hφ : FKind.Formats .f32)
    (hacc : (0x00000000#32 : BitVec 32) = FKind.add.neutral .f32 hφ) (i : Fin 1024) :
    multiReduction (F := Ideal) .add [1] S1024 src 0x00000000#32 reduces_S1024x1024_S1024 hφ hacc (ix1 i)
      = ∑ j : Fin 1024, src (ix2 i j) := by
  refine (Ideal.multiReduction_add_single src _ reduces_S1024x1024_S1024 hφ hacc (ix1 i)).trans ?_
  exact Finset.sum_congr rfl fun k _ => congrArg src (lift_row i k)

/-- A lane maximum of a [1024, 1024] matrix at row i is the fold of max over the row, from minus infinity. -/
theorem rowMax_apply (src : FVec Ideal S1024x1024 .f32) (hφ : FKind.Formats .f32)
    (hacc : (0xFF800000#32 : BitVec 32) = FKind.maximumf.neutral .f32 hφ) (i : Fin 1024) :
    multiReduction (F := Ideal) .maximumf [1] S1024 src 0xFF800000#32 reduces_S1024x1024_S1024 hφ hacc (ix1 i)
      = (Finset.univ : Finset (Fin 1024)).fold max Cert.Spec.negInf (fun j => src (ix2 i j)) := by
  refine (Ideal.multiReduction_maximumf_single src _ reduces_S1024x1024_S1024 hφ hacc (ix1 i)).trans ?_
  exact congrArg (Finset.fold max Cert.Spec.negInf · Finset.univ) (funext fun k => congrArg src (lift_row i k))

/-! ## One head's arithmetic -/

section Head

variable (x0 x1 x2 : Vec Ideal S1x1024x64 .bf16)

/-- A head's scaled scores: entry (i, j) is the score of query row i against key row j. -/
theorem scores_apply (i j : Fin 1024) :
    k2_pay4 (F := Ideal) x0 x1 (ix2 i j)
      = Cert.Spec.score (fun i d => x0 (ix3 0 i d)) (fun i d => x1 (ix3 0 i d)) i j := by
  unfold k2_pay4 Cert.Spec.score
  refine (mulf_apply _ _ _).trans ?_
  refine congrArg₂ (· * ·) ?_ rfl
  refine (matmul_qk_apply _ _ i j).trans ?_
  exact Finset.sum_congr rfl fun d _ => congrArg₂ (· * ·) (dropUnit_apply x0 i d) (dropUnit_apply x1 j d)

/-- The scores' row maxima spread over the lanes: entry (i, j) is the largest score of query row i. -/
theorem rowMaxima_apply (i j : Fin 1024) :
    k2_pay5 (F := Ideal) x0 x1 (ix2 i j)
      = Cert.Spec.rowMax (fun i d => x0 (ix3 0 i d)) (fun i d => x1 (ix3 0 i d)) i := by
  unfold k2_pay5 Cert.Spec.rowMax
  refine (colBroadcast1024_apply _ i j).trans ?_
  refine (rowMax_apply _ _ _ i).trans ?_
  exact congrArg (Finset.fold max Cert.Spec.negInf · Finset.univ) (funext fun k => scores_apply x0 x1 i k)

end Head

/-- What the body does with a head's scaled scores, their row maxima spread over the lanes, and its value matrix:
    exponentials of the differences, their row sums, their product with the values, the quotient. -/
def finish (sc mx : FVec Ideal S1024x1024 .f32) (v : FVec Ideal S1024x64 .bf16) : FVec Ideal S1024x64 .f32 :=
  divf
    (matmul dot_S1024x1024_S1024x64_S1024x64_1_0_0_1_n_n none (truncf .bf16 (exp (subf sc mx)) bitsLt_bf16_f32) v
      (constant (F := Ideal) S1024x64 .f32 0x00000000#32))
    (broadcastTo S1024x64
      (shapeCast S1024x1 (multiReduction (F := Ideal) .add [1] S1024 (exp (subf sc mx)) 0x00000000#32 reduces_S1024x1024_S1024 (.inl rfl) rfl)
        shapeCasts_S1024_S1024x1)
      broadcasts_S1024x1_S1024x64)

theorem finish_apply (sc mx : FVec Ideal S1024x1024 .f32) (v : FVec Ideal S1024x64 .bf16) (s : Fin 1024) (d : Fin 64) :
    finish sc mx v (ix2 s d)
      = Ideal.div (∑ j : Fin 1024, Ideal.exp (sc (ix2 s j) - mx (ix2 s j)) * v (ix2 j d))
          (∑ j : Fin 1024, Ideal.exp (sc (ix2 s j) - mx (ix2 s j))) := by
  unfold finish
  refine (divf_apply _ _ _).trans ?_
  refine congrArg₂ Ideal.div ?_ ?_
  · refine (matmul_pv_apply _ _ s d).trans ?_
    rfl
  · refine (colBroadcast64_apply _ s d).trans ?_
    refine (rowSum_apply _ _ _ s).trans ?_
    rfl

/-- A head's finished value is the late-normalised attention of its query, key and value matrices. -/
theorem head_apply (x0 x1 x2 : Vec Ideal S1x1024x64 .bf16) (s : Fin 1024) (d : Fin 64) :
    finish (k2_pay4 (F := Ideal) x0 x1) (k2_pay5 (F := Ideal) x0 x1) (k2_pay3 (F := Ideal) x2) (ix2 s d)
      = Cert.Spec.attnLate (fun i d => x0 (ix3 0 i d)) (fun i d => x1 (ix3 0 i d)) (fun i d => x2 (ix3 0 i d)) s d := by
  refine (finish_apply _ _ _ s d).trans ?_
  unfold Cert.Spec.attnLate Cert.Spec.denom Cert.Spec.weight
  have hw : ∀ j : Fin 1024, Ideal.exp (k2_pay4 (F := Ideal) x0 x1 (ix2 s j) - k2_pay5 (F := Ideal) x0 x1 (ix2 s j))
      = Ideal.exp (Cert.Spec.score (fun i d => x0 (ix3 0 i d)) (fun i d => x1 (ix3 0 i d)) s j
          - Cert.Spec.rowMax (fun i d => x0 (ix3 0 i d)) (fun i d => x1 (ix3 0 i d)) s) := fun j =>
    congrArg Ideal.exp (congrArg₂ (· - ·) (scores_apply x0 x1 s j) (rowMaxima_apply x0 x1 s j))
  refine congrArg₂ Ideal.div ?_ ?_
  · exact Finset.sum_congr rfl fun j _ => congrArg₂ (· * ·) (hw j) (by unfold k2_pay3; exact dropUnit_apply x2 j d)
  · exact Finset.sum_congr rfl fun j _ => hw j

/-- The first head's payload is the finishing of its own scores. -/
theorem pay2_eq (x0 x1 x2 : Vec Ideal S1x1024x64 .bf16) :
    k2_pay2 (F := Ideal) x0 x1 x2 = finish (k2_pay4 (F := Ideal) x0 x1) (k2_pay5 (F := Ideal) x0 x1) (k2_pay3 (F := Ideal) x2) := rfl

/-- The stored value: the two heads side by side along the lanes, under a leading unit axis. -/
theorem pay1_eq (v19 : FVec Ideal S1024x64 .f32) (v25 : FVec Ideal S1024x64 .bf16) (v28 v31 : FVec Ideal S1024x1024 .f32) :
    k2_pay1 (F := Ideal) v19 v25 v28 v31
      = shapeCast S1x1024x128
          (concatenate S1024x128 1 [⟨S1024x64, v19⟩, ⟨S1024x64, finish v28 v31 v25⟩] concatenates_S1024x64_S1024x64_S1024x128_d1)
          shapeCasts_S1024x128_S1x1024x128 := rfl

/-- The stored value at a lane of the first head … -/
theorem store_lo_apply (lo hi : FVec Ideal S1024x64 .f32) (s : Fin 1024) (n : Fin 128) (d : Fin 64) (hn : n.val = d.val) :
    shapeCast S1x1024x128
        (concatenate S1024x128 1 [⟨S1024x64, lo⟩, ⟨S1024x64, hi⟩] concatenates_S1024x64_S1024x64_S1024x128_d1)
        shapeCasts_S1024x128_S1x1024x128 (ix3 0 s n) = lo (ix2 s d) := by
  refine (shapeCast_apply _ shapeCasts_S1024x128_S1x1024x128 (ix3 0 s n) (ix2 s n) (by
    rw [Shape.rowMajor_val_two, Shape.rowMajor_val_three]
    show s.val * 128 + n.val = ((0 : Nat) * 1024 + s.val) * 128 + n.val
    omega)).trans ?_
  refine concatenate_pair_apply_left (1 : Fin S1024x128.rank) lo hi concatenates_S1024x64_S1024x64_S1024x128_d1 (ix2 s n) rfl (ix2 s d) (fun b => ?_)
  match b with
  | ⟨0, _⟩ => rfl
  | ⟨1, _⟩ => exact hn.symm

/-- … and of the second. -/
theorem store_hi_apply (lo hi : FVec Ideal S1024x64 .f32) (s : Fin 1024) (n : Fin 128) (d : Fin 64) (hn : n.val = 64 + d.val) :
    shapeCast S1x1024x128
        (concatenate S1024x128 1 [⟨S1024x64, lo⟩, ⟨S1024x64, hi⟩] concatenates_S1024x64_S1024x64_S1024x128_d1)
        shapeCasts_S1024x128_S1x1024x128 (ix3 0 s n) = hi (ix2 s d) := by
  refine (shapeCast_apply _ shapeCasts_S1024x128_S1x1024x128 (ix3 0 s n) (ix2 s n) (by
    rw [Shape.rowMajor_val_two, Shape.rowMajor_val_three]
    show s.val * 128 + n.val = ((0 : Nat) * 1024 + s.val) * 128 + n.val
    omega)).trans ?_
  refine concatenate_pair_apply_right (1 : Fin S1024x128.rank) lo hi concatenates_S1024x64_S1024x64_S1024x128_d1 (ix2 s n) rfl rfl (ix2 s d) (fun b hb => ?_) ?_
  · match b with
    | ⟨0, _⟩ => rfl
    | ⟨1, _⟩ => exact absurd rfl hb
  · show d.val + 64 = n.val
    omega

/-! ## The stored block at an index -/

theorem zero3 : (![0, 0, 0] : Fin 3 → Nat) = fun _ => 0 := funext fun a => by fin_cases a <;> rfl

/-- Equal query, key and value matrices and equal places give equal attention values. -/
theorem attnLate_congr {q q' k k' v v' : Fin 1024 → Fin 64 → EReal} (hq : ∀ i d, q i d = q' i d) (hk : ∀ i d, k i d = k' i d)
    (hv : ∀ i d, v i d = v' i d) (s : Fin 1024) {w w' : Fin 64} (hw : w = w') :
    Cert.Spec.attnLate q k v s w = Cert.Spec.attnLate q' k' v' s w' := by
  obtain rfl : q = q' := funext fun i => funext (hq i)
  obtain rfl : k = k' := funext fun i => funext (hk i)
  obtain rfl : v = v' := funext fun i => funext (hv i)
  subst hw
  rfl

/-- A block's first head: lane d of the head is lane d of the block … -/
theorem ld_lo_apply (x : Vec Ideal S1x1024x128 .bf16) (i : Fin 1024) (d : Fin 64) :
    (View.ld x rlo2 : Vec Ideal S1x1024x64 .bf16) (ix3 0 i d) = x (ix3 0 i ⟨d.val, by omega⟩) := by
  show x (rlo2.idx (ix3 0 i d)) = _
  refine congrArg x (funext fun a => Fin.ext ?_)
  match a with
  | ⟨0, _⟩ => show 0 + 1 * 0 = 0; rfl
  | ⟨1, _⟩ => show 0 + 1 * i.val = i.val; omega
  | ⟨2, _⟩ => show 0 + 1 * d.val = d.val; omega

/-- … and its second head: lane d of the head is lane 64 + d of the block. -/
theorem ld_hi_apply (x : Vec Ideal S1x1024x128 .bf16) (i : Fin 1024) (d : Fin 64) :
    (View.ld x rhi2 : Vec Ideal S1x1024x64 .bf16) (ix3 0 i d) = x (ix3 0 i ⟨64 + d.val, by omega⟩) := by
  show x (rhi2.idx (ix3 0 i d)) = _
  refine congrArg x (funext fun a => Fin.ext ?_)
  match a with
  | ⟨0, _⟩ => show 0 + 1 * 0 = 0; rfl
  | ⟨1, _⟩ => show 0 + 1 * i.val = i.val; omega
  | ⟨2, _⟩ => show 64 + 1 * d.val = 64 + d.val; omega

section Block

variable (x0 x1 x2 : Vec Ideal S1x1024x128 .bf16)

/-- What the body stores, at a lane of the first head: the attention of the three blocks' first 64 lanes. -/
theorem out_lo_apply (s : Fin 1024) (n : Fin 128) (hn : n.val < 64) :
    out2_3 (F := Ideal) x0 x1 x2 (ix3 0 s n)
      = Cert.Spec.attnLate (fun i d => x0 (ix3 0 i ⟨d.val, by omega⟩)) (fun i d => x1 (ix3 0 i ⟨d.val, by omega⟩))
          (fun i d => x2 (ix3 0 i ⟨d.val, by omega⟩)) s ⟨n.val, hn⟩ := by
  unfold out2_3
  rw [View.canon_unit_zero zero3, pay1_eq, pay2_eq]
  refine (store_lo_apply _ _ s n ⟨n.val, hn⟩ rfl).trans ?_
  refine (head_apply (View.ld x0 rlo2) (View.ld x1 rlo2) (View.ld x2 rlo2) s ⟨n.val, hn⟩).trans ?_
  exact attnLate_congr (fun i d => ld_lo_apply x0 i d) (fun i d => ld_lo_apply x1 i d) (fun i d => ld_lo_apply x2 i d) s rfl

/-- At a lane of the second head: the attention of the three blocks' last 64 lanes. -/
theorem out_hi_apply (s : Fin 1024) (n : Fin 128) (hn : 64 ≤ n.val) :
    out2_3 (F := Ideal) x0 x1 x2 (ix3 0 s n)
      = Cert.Spec.attnLate (fun i d => x0 (ix3 0 i ⟨64 + d.val, by omega⟩)) (fun i d => x1 (ix3 0 i ⟨64 + d.val, by omega⟩))
          (fun i d => x2 (ix3 0 i ⟨64 + d.val, by omega⟩)) s ⟨n.val - 64, by omega⟩ := by
  unfold out2_3
  rw [View.canon_unit_zero zero3, pay1_eq]
  refine (store_hi_apply _ _ s n ⟨n.val - 64, by omega⟩ (by show n.val = 64 + (n.val - 64); omega)).trans ?_
  refine (head_apply (View.ld x0 rhi2) (View.ld x1 rhi2) (View.ld x2 rhi2) s ⟨n.val - 64, by omega⟩).trans ?_
  exact attnLate_congr (fun i d => ld_hi_apply x0 i d) (fun i d => ld_hi_apply x1 i d) (fun i d => ld_hi_apply x2 i d) s rfl

end Block

/-! ## From the blocks to the array -/

/-- The attention of batch entry b at query s and model column n, read off the query array and the key–value array. -/
def attnArr (A8 : S4x1024x1024.Idx → EReal) (A9 : S4x1024x2048.Idx → EReal) (b : Fin 4) (s n : Fin 1024) : EReal :=
  Cert.Spec.attnLate (fun i d => A8 (ix3 b i (Cert.Spec.col (Cert.Spec.headOf n) d)))
    (fun i d => A9 (ix3 b i (kcol (Cert.Spec.headOf n) d))) (fun i d => A9 (ix3 b i (vcol (Cert.Spec.headOf n) d)))
    s (Cert.Spec.within n)

/-- The whole result array as one function of the two arrays. -/
def attnWhole (A8 : S4x1024x1024.Idx → EReal) (A9 : S4x1024x2048.Idx → EReal) : S4x1024x1024.Idx → EReal := fun i =>
  attnArr A8 A9 ⟨(i 0).val, (i 0).isLt⟩ ⟨(i 1).val, (i 1).isLt⟩ ⟨(i 2).val, (i 2).isLt⟩

theorem attnWhole_at (A8 : S4x1024x1024.Idx → EReal) (A9 : S4x1024x2048.Idx → EReal) (i : S4x1024x1024.Idx)
    (b : Fin 4) (s n : Fin 1024) (h0 : (i 0).val = b.val) (h1 : (i 1).val = s.val) (h2 : (i 2).val = n.val) :
    attnWhole A8 A9 i = attnArr A8 A9 b s n := by
  unfold attnWhole
  rw [show (⟨(i 0).val, (i 0).isLt⟩ : Fin 4) = b from Fin.ext h0, show (⟨(i 1).val, (i 1).isLt⟩ : Fin 1024) = s from Fin.ext h1,
    show (⟨(i 2).val, (i 2).isLt⟩ : Fin 1024) = n from Fin.ext h2]

/-- The printed index maps, decided over the grid: the queries', the keys' and the result's windows move together,
    the values' window eight column blocks further on; the result's block indices stay in their ranges. -/
theorem idx_facts : ∀ t : Fin cfg2.N,
    win2_0.index t (0 : Fin 3) = win2_3.index t (0 : Fin 3) ∧ win2_0.index t (1 : Fin 3) = 0
    ∧ win2_0.index t (2 : Fin 3) = win2_3.index t (2 : Fin 3)
    ∧ win2_1.index t (0 : Fin 3) = win2_3.index t (0 : Fin 3) ∧ win2_1.index t (1 : Fin 3) = 0
    ∧ win2_1.index t (2 : Fin 3) = win2_3.index t (2 : Fin 3)
    ∧ win2_2.index t (0 : Fin 3) = win2_3.index t (0 : Fin 3) ∧ win2_2.index t (1 : Fin 3) = 0
    ∧ win2_2.index t (2 : Fin 3) = win2_3.index t (2 : Fin 3) + 8
    ∧ win2_3.index t (0 : Fin 3) ≤ 3 ∧ win2_3.index t (1 : Fin 3) = 0 ∧ win2_3.index t (2 : Fin 3) ≤ 7 :=
  (by decide +kernel : ∀ t : Fin grid2.N, _)

/-- Every (batch entry, column block) is some point's. -/
theorem idx_onto : ∀ (q0 : Fin 4) (q2 : Fin 8), ∃ t : Fin cfg2.N, win2_3.index t = ![q0.val, 0, q2.val] :=
  (by decide +kernel : ∀ (q0 : Fin 4) (q2 : Fin 8), ∃ t : Fin grid2.N, win2_3.index t = ![q0.val, 0, q2.val])

/-- An element of the queries' block at point t sits in the query array at block index × block size + its own place. -/
theorem iblk0_apply (c : Dev nD) (t : Fin cfg2.N) (x : S1x1024x128.Idx) (k : S4x1024x1024.Idx)
    (hk0 : (k 0).val = win2_0.index t (0 : Fin 3) * 1 + (x 0).val) (hk1 : (k 1).val = win2_0.index t (1 : Fin 3) * 1024 + (x 1).val)
    (hk2 : (k 2).val = win2_0.index t (2 : Fin 3) * 128 + (x 2).val) :
    (iblk2 V c 0 t : Vec Ideal S1x1024x128 .bf16) x = (V c main_v8 : S4x1024x1024.Idx → EReal) k := by
  unfold iblk2
  rw [View.read_apply]
  show V c main_v8 _ = V c main_v8 _
  congr 1
  funext a
  apply Fin.ext
  match a with
  | ⟨0, _⟩ => show win2_0.index t (0 : Fin 3) * 1 + 1 * (x 0).val = (k 0).val; omega
  | ⟨1, _⟩ => show win2_0.index t (1 : Fin 3) * 1024 + 1 * (x 1).val = (k 1).val; omega
  | ⟨2, _⟩ => show win2_0.index t (2 : Fin 3) * 128 + 1 * (x 2).val = (k 2).val; omega

/-- The same for the keys' block in the key–value array … -/
theorem iblk1_apply (c : Dev nD) (t : Fin cfg2.N) (x : S1x1024x128.Idx) (k : S4x1024x2048.Idx)
    (hk0 : (k 0).val = win2_1.index t (0 : Fin 3) * 1 + (x 0).val) (hk1 : (k 1).val = win2_1.index t (1 : Fin 3) * 1024 + (x 1).val)
    (hk2 : (k 2).val = win2_1.index t (2 : Fin 3) * 128 + (x 2).val) :
    (iblk2 V c 1 t : Vec Ideal S1x1024x128 .bf16) x = (V c main_v9 : S4x1024x2048.Idx → EReal) k := by
  unfold iblk2
  rw [View.read_apply]
  show V c main_v9 _ = V c main_v9 _
  congr 1
  funext a
  apply Fin.ext
  match a with
  | ⟨0, _⟩ => show win2_1.index t (0 : Fin 3) * 1 + 1 * (x 0).val = (k 0).val; omega
  | ⟨1, _⟩ => show win2_1.index t (1 : Fin 3) * 1024 + 1 * (x 1).val = (k 1).val; omega
  | ⟨2, _⟩ => show win2_1.index t (2 : Fin 3) * 128 + 1 * (x 2).val = (k 2).val; omega

/-- … and for the values' block in it. -/
theorem iblk2_apply (c : Dev nD) (t : Fin cfg2.N) (x : S1x1024x128.Idx) (k : S4x1024x2048.Idx)
    (hk0 : (k 0).val = win2_2.index t (0 : Fin 3) * 1 + (x 0).val) (hk1 : (k 1).val = win2_2.index t (1 : Fin 3) * 1024 + (x 1).val)
    (hk2 : (k 2).val = win2_2.index t (2 : Fin 3) * 128 + (x 2).val) :
    (iblk2 V c 2 t : Vec Ideal S1x1024x128 .bf16) x = (V c main_v9 : S4x1024x2048.Idx → EReal) k := by
  unfold iblk2
  rw [View.read_apply]
  show V c main_v9 _ = V c main_v9 _
  congr 1
  funext a
  apply Fin.ext
  match a with
  | ⟨0, _⟩ => show win2_2.index t (0 : Fin 3) * 1 + 1 * (x 0).val = (k 0).val; omega
  | ⟨1, _⟩ => show win2_2.index t (1 : Fin 3) * 1024 + 1 * (x 1).val = (k 1).val; omega
  | ⟨2, _⟩ => show win2_2.index t (2 : Fin 3) * 128 + 1 * (x 2).val = (k 2).val; omega

/-- What point t stores at (0, s, n) of its block is the attention of its batch entry at query s and the model
    column its column block puts lane n at. -/
theorem block_eq (c : Dev nD) (t : Fin cfg2.N) (s : Fin 1024) (n : Fin 128) (b : Fin 4) (N : Fin 1024)
    (hb : win2_3.index t (0 : Fin 3) = b.val) (hN : N.val = win2_3.index t (2 : Fin 3) * 128 + n.val) :
    out2_3 (F := Ideal) (iblk2 V c 0 t) (iblk2 V c 1 t) (iblk2 V c 2 t) (ix3 0 s n)
      = attnArr (V c main_v8) (V c main_v9) b s N := by
  obtain ⟨e00, e01, e02, e10, e11, e12, e20, e21, e22, r0, r1, r2⟩ := idx_facts t
  unfold attnArr
  by_cases hn : n.val < 64
  · refine (out_lo_apply (iblk2 V c 0 t) (iblk2 V c 1 t) (iblk2 V c 2 t) s n hn).trans ?_
    refine attnLate_congr (fun i d => ?_) (fun i d => ?_) (fun i d => ?_) s (Fin.ext ?_)
    · exact iblk0_apply V c t _ _ (by show b.val = win2_0.index t (0 : Fin 3) * 1 + 0; omega)
        (by show i.val = win2_0.index t (1 : Fin 3) * 1024 + i.val; omega)
        (by show N.val / 64 * 64 + d.val = win2_0.index t (2 : Fin 3) * 128 + d.val; omega)
    · exact iblk1_apply V c t _ _ (by show b.val = win2_1.index t (0 : Fin 3) * 1 + 0; omega)
        (by show i.val = win2_1.index t (1 : Fin 3) * 1024 + i.val; omega)
        (by show N.val / 64 * 64 + d.val = win2_1.index t (2 : Fin 3) * 128 + d.val; omega)
    · exact iblk2_apply V c t _ _ (by show b.val = win2_2.index t (0 : Fin 3) * 1 + 0; omega)
        (by show i.val = win2_2.index t (1 : Fin 3) * 1024 + i.val; omega)
        (by show 1024 + N.val / 64 * 64 + d.val = win2_2.index t (2 : Fin 3) * 128 + d.val; omega)
    · show n.val = N.val % 64; omega
  · refine (out_hi_apply (iblk2 V c 0 t) (iblk2 V c 1 t) (iblk2 V c 2 t) s n (by omega)).trans ?_
    refine attnLate_congr (fun i d => ?_) (fun i d => ?_) (fun i d => ?_) s (Fin.ext ?_)
    · exact iblk0_apply V c t _ _ (by show b.val = win2_0.index t (0 : Fin 3) * 1 + 0; omega)
        (by show i.val = win2_0.index t (1 : Fin 3) * 1024 + i.val; omega)
        (by show N.val / 64 * 64 + d.val = win2_0.index t (2 : Fin 3) * 128 + (64 + d.val); omega)
    · exact iblk1_apply V c t _ _ (by show b.val = win2_1.index t (0 : Fin 3) * 1 + 0; omega)
        (by show i.val = win2_1.index t (1 : Fin 3) * 1024 + i.val; omega)
        (by show N.val / 64 * 64 + d.val = win2_1.index t (2 : Fin 3) * 128 + (64 + d.val); omega)
    · exact iblk2_apply V c t _ _ (by show b.val = win2_2.index t (0 : Fin 3) * 1 + 0; omega)
        (by show i.val = win2_2.index t (1 : Fin 3) * 1024 + i.val; omega)
        (by show 1024 + N.val / 64 * 64 + d.val = win2_2.index t (2 : Fin 3) * 128 + (64 + d.val); omega)
    · show n.val - 64 = N.val % 64; omega

/-- What point t writes back is its block of the whole attention array. -/
theorem flushed_eq (c : Dev nD) (t : Fin cfg2.N) :
    (dat2 (F := Ideal) V c).flushed 3 t
      = ((cfg2.win 3).blk t).view.read (Elt Ideal) (attnWhole (V c main_v8) (V c main_v9)) := by
  show (cfg2.win 3).cut (grid2.coords t) ((dat2 (F := Ideal) V c).after 3 t) = _
  rw [after2_3]
  obtain ⟨e00, e01, e02, e10, e11, e12, e20, e21, e22, r0, r1, r2⟩ := idx_facts t
  funext j
  obtain ⟨z, s, n, rfl⟩ : ∃ (z : Fin 1) (s : Fin 1024) (n : Fin 128), j = ix3 z s n := ⟨j 0, j 1, j 2, eq_ix3 j⟩
  obtain rfl : z = 0 := Subsingleton.elim _ _
  show out2_3 (F := Ideal) (iblk2 V c 0 t) (iblk2 V c 1 t) (iblk2 V c 2 t) (ix3 0 s n)
    = attnWhole (V c main_v8) (V c main_v9) (((cfg2.win 3).blk t).view.emb (ix3 0 s n))
  have hb : win2_3.index t (0 : Fin 3) < 4 := by omega
  have hN : win2_3.index t (2 : Fin 3) * 128 + n.val < 1024 := by have := n.isLt; omega
  refine (block_eq V c t s n ⟨win2_3.index t (0 : Fin 3), hb⟩ ⟨win2_3.index t (2 : Fin 3) * 128 + n.val, hN⟩ rfl rfl).trans ?_
  refine (attnWhole_at _ _ _ _ _ _ ?_ ?_ ?_).symm
  · show win2_3.index t (0 : Fin 3) * 1 + 1 * 0 = win2_3.index t (0 : Fin 3); omega
  · show win2_3.index t (1 : Fin 3) * 1024 + 1 * s.val = s.val; omega
  · show win2_3.index t (2 : Fin 3) * 128 + 1 * n.val = win2_3.index t (2 : Fin 3) * 128 + n.val; omega

/-- An index of the array is in point t's block iff each coordinate is in the block's range on its axis. -/
theorem mem_blk (t : Fin cfg2.N) (i : S4x1024x1024.Idx) :
    i ∈ ((cfg2.win 3).blk t).view.set ↔ ∀ a : Fin 3, win2_3.index t a * S1x1024x128.size a ≤ (i a).val
      ∧ (i a).val < win2_3.index t a * S1x1024x128.size a + S1x1024x128.size a := by
  show i ∈ ((View.whole main_v10).slice (win2_3.rect t)).set ↔ _
  rw [View.set_slice_whole, Rect.mem_set_unit]
  exact Iff.rfl

/-- The 32 blocks cover the array: (b, s, n) lies in the block of batch entry b and column block n / 128. -/
theorem cover (i : S4x1024x1024.Idx) :
    ∃ t : Fin cfg2.N, (cfg2.win 3).flush t = true ∧ i ∈ ((cfg2.win 3).blk t).view.set := by
  have hi0 : (i 0).val < 4 := (i 0).isLt
  have hi1 : (i 1).val < 1024 := (i 1).isLt
  have hi2 : (i 2).val < 1024 := (i 2).isLt
  obtain ⟨t, ht⟩ := idx_onto ⟨(i 0).val, hi0⟩ ⟨(i 2).val / 128, by omega⟩
  have q0 : win2_3.index t (0 : Fin 3) = (i 0).val := congrFun ht 0
  have q1 : win2_3.index t (1 : Fin 3) = 0 := congrFun ht 1
  have q2 : win2_3.index t (2 : Fin 3) = (i 2).val / 128 := congrFun ht 2
  refine ⟨t, flush2_3 t, ?_⟩
  rw [mem_blk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 1024 ≤ (i 1).val ∧ (i 1).val < win2_3.index t (1 : Fin 3) * 1024 + 1024; omega
  | ⟨2, _⟩ => show win2_3.index t (2 : Fin 3) * 128 ≤ (i 2).val ∧ (i 2).val < win2_3.index t (2 : Fin 3) * 128 + 128; omega

/-- The result array after the region, entry by entry. -/
theorem arr2 (c : Dev nD) (b : Fin 4) (s : Fin 1024) (n : Fin 1024) :
    ((dat2 (F := Ideal) V c).arrAt 3 cfg2.N : S4x1024x1024.Idx → EReal) (ix3 b s n)
      = Cert.Spec.attnLate
          (fun i d => (V c main_v8 : S4x1024x1024.Idx → EReal) (ix3 b i (Cert.Spec.col (Cert.Spec.headOf n) d)))
          (fun i d => (V c main_v9 : S4x1024x2048.Idx → EReal) (ix3 b i (kcol (Cert.Spec.headOf n) d)))
          (fun i d => (V c main_v9 : S4x1024x2048.Idx → EReal) (ix3 b i (vcol (Cert.Spec.headOf n) d)))
          s (Cert.Spec.within n) := by
  have h := (dat2 (F := Ideal) V c).arrAt_eq_of_cover 3 (attnWhole (V c main_v8) (V c main_v9)) (fun t _ => flushed_eq V c t) cover
  exact (congrFun h (ix3 b s n)).trans (attnWhole_at _ _ _ b s n rfl rfl rfl)

end Cert.KernelIdeal.Hand

end
-- ==== Proof.KI.KernelValue.lean ====
/-
  The idealized kernel's result as a function of its arguments. The first host stretch reshapes the two inputs
  to 4096 rows, keeps the query weights (the change of format is the identity on the extended reals), puts the
  keys' and values' weights side by side and their biases end to end; the two projection regions leave
  `rows · weights + bias`; the second host stretch reshapes the two projections back to [batch, token, column];
  the attention region reads queries, keys (columns below 1024) and values (columns from 1024) per head. Composed,
  the result array is the late-normalised attention of the arguments.
-/
import proofs.«430604_j26903675142357_3_alg».proof.Proof.KI.Vals
import proofs.«430604_j26903675142357_3_alg».proof.Proof.KI.Val0
import proofs.«430604_j26903675142357_3_alg».proof.Proof.KI.Val1
import proofs.«430604_j26903675142357_3_alg».proof.Proof.KI.Val2
import proofs.«430604_j26903675142357_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The argument arrays, as arrays of extended reals. -/
abbrev xq (c : Dev nD) : S4x1024x1024.Idx → EReal := m ((c.tc : Thread nD τ).loc main_arg0)
abbrev xk (c : Dev nD) : S4x1024x1024.Idx → EReal := m ((c.tc : Thread nD τ).loc main_arg1)
abbrev wq (c : Dev nD) : S1024x1024.Idx → EReal := m ((c.tc : Thread nD τ).loc main_arg2)
abbrev bq (c : Dev nD) : S1024.Idx → EReal := m ((c.tc : Thread nD τ).loc main_arg3)
abbrev wk (c : Dev nD) : S1024x1024.Idx → EReal := m ((c.tc : Thread nD τ).loc main_arg4)
abbrev bk (c : Dev nD) : S1024.Idx → EReal := m ((c.tc : Thread nD τ).loc main_arg5)
abbrev wv (c : Dev nD) : S1024x1024.Idx → EReal := m ((c.tc : Thread nD τ).loc main_arg6)
abbrev bv (c : Dev nD) : S1024.Idx → EReal := m ((c.tc : Thread nD τ).loc main_arg7)

/-- What the first host stretch leaves in the buffers the projection regions read. -/
theorem W1_v0 (c : Dev nD) :
    (W1 (F := Ideal) m c (Proc.devRef .tc main_v0) : S4096x1024.Idx → EReal)
      = shapeCast S4096x1024 (xq m c) shapeCasts_S4x1024x1024_S4096x1024 := by
  show StableHlo.after hostOps0 (W0 (F := Ideal) m c) (Proc.devRef .tc main_v0) = _
  after_results
  rfl
theorem W1_v1 (c : Dev nD) :
    (W1 (F := Ideal) m c (Proc.devRef .tc main_v1) : S4096x1024.Idx → EReal)
      = shapeCast S4096x1024 (xk m c) shapeCasts_S4x1024x1024_S4096x1024 := by
  show StableHlo.after hostOps0 (W0 (F := Ideal) m c) (Proc.devRef .tc main_v1) = _
  after_results
  rfl
theorem W1_v2 (c : Dev nD) :
    (W1 (F := Ideal) m c (Proc.devRef .tc main_v2) : S1024x1024.Idx → EReal) = wq m c := by
  show StableHlo.after hostOps0 (W0 (F := Ideal) m c) (Proc.devRef .tc main_v2) = _
  after_results
  rfl
theorem W1_arg3 (c : Dev nD) :
    (W1 (F := Ideal) m c (Proc.devRef .tc main_arg3) : S1024.Idx → EReal) = bq m c := by
  show StableHlo.after hostOps0 (W0 (F := Ideal) m c) (Proc.devRef .tc main_arg3) = _
  after_results
theorem W1_v4 (c : Dev nD) :
    (W1 (F := Ideal) m c (Proc.devRef .tc main_v4) : S1024x2048.Idx → EReal)
      = concatenate S1024x2048 1 [⟨S1024x1024, wk m c⟩, ⟨S1024x1024, wv m c⟩] concatenates_S1024x1024_S1024x1024_S1024x2048_d1 := by
  show StableHlo.after hostOps0 (W0 (F := Ideal) m c) (Proc.devRef .tc main_v4) = _
  after_results
  rfl
theorem W1_v5 (c : Dev nD) :
    (W1 (F := Ideal) m c (Proc.devRef .tc main_v5) : S2048.Idx → EReal)
      = concatenate S2048 0 [⟨S1024, bk m c⟩, ⟨S1024, bv m c⟩] concatenates_S1024_S1024_S2048_d0 := by
  show StableHlo.after hostOps0 (W0 (F := Ideal) m c) (Proc.devRef .tc main_v5) = _
  after_results

theorem rows0_eq (c : Dev nD) :
    rows0 (V1 (F := Ideal) m) c = shapeCast S4096x1024 (xq m c) shapeCasts_S4x1024x1024_S4096x1024 := W1_v0 m c
theorem wts0_eq (c : Dev nD) : wts0 (V1 (F := Ideal) m) c = wq m c := W1_v2 m c
theorem bias0_eq (c : Dev nD) : bias0 (V1 (F := Ideal) m) c = bq m c := W1_arg3 m c

/-- The first projection region changes none of the second's inputs. -/
theorem rows1_eq (c : Dev nD) :
    rows1 (V2 (F := Ideal) m) c = shapeCast S4096x1024 (xk m c) shapeCasts_S4x1024x1024_S4096x1024 :=
  (W2_of_ne m c main_v1 (by decide)).trans (W1_v1 m c)
theorem wts1_eq (c : Dev nD) :
    wts1 (V2 (F := Ideal) m) c
      = concatenate S1024x2048 1 [⟨S1024x1024, wk m c⟩, ⟨S1024x1024, wv m c⟩] concatenates_S1024x1024_S1024x1024_S1024x2048_d1 :=
  (W2_of_ne m c main_v4 (by decide)).trans (W1_v4 m c)
theorem bias1_eq (c : Dev nD) :
    bias1 (V2 (F := Ideal) m) c = concatenate S2048 0 [⟨S1024, bk m c⟩, ⟨S1024, bv m c⟩] concatenates_S1024_S1024_S2048_d0 :=
  (W2_of_ne m c main_v5 (by decide)).trans (W1_v5 m c)

/-- The two projections' arrays as the attention region's host stretch finds them. -/
abbrev qArr (c : Dev nD) : S4096x1024.Idx → EReal := W3 (F := Ideal) m c (Proc.devRef .tc main_v6)
abbrev kvArr (c : Dev nD) : S4096x2048.Idx → EReal := W3 (F := Ideal) m c (Proc.devRef .tc main_v7)

theorem qArr_apply (c : Dev nD) (r : Fin 4096) (n : Fin 1024) :
    qArr m c (ix2 r n)
      = (∑ k : Fin 1024, shapeCast S4096x1024 (xq m c) shapeCasts_S4x1024x1024_S4096x1024 (ix2 r k) * wq m c (ix2 k n)) + bq m c (ix1 n) := by
  have e : qArr m c = outArr0 (V1 (F := Ideal) m) c := (W3_of_ne m c main_v6 (by decide)).trans (W2_arr m c 3)
  rw [e, arr0, rows0_eq, wts0_eq, bias0_eq]

theorem kvArr_apply (c : Dev nD) (r : Fin 4096) (n : Fin 2048) :
    kvArr m c (ix2 r n)
      = (∑ k : Fin 1024, shapeCast S4096x1024 (xk m c) shapeCasts_S4x1024x1024_S4096x1024 (ix2 r k)
          * concatenate S1024x2048 1 [⟨S1024x1024, wk m c⟩, ⟨S1024x1024, wv m c⟩] concatenates_S1024x1024_S1024x1024_S1024x2048_d1 (ix2 k n))
        + concatenate S2048 0 [⟨S1024, bk m c⟩, ⟨S1024, bv m c⟩] concatenates_S1024_S1024_S2048_d0 (ix1 n) := by
  have e : kvArr m c = outArr1 (V2 (F := Ideal) m) c := W3_arr m c 3
  rw [e, arr1, rows1_eq, wts1_eq, bias1_eq]

/-- What the second host stretch leaves in the attention region's two input arrays. -/
theorem W4_v8 (c : Dev nD) :
    (W4 (F := Ideal) m c (Proc.devRef .tc main_v8) : S4x1024x1024.Idx → EReal)
      = shapeCast S4x1024x1024 (qArr m c) shapeCasts_S4096x1024_S4x1024x1024 := by
  show StableHlo.after hostOps2 (W3 (F := Ideal) m c) (Proc.devRef .tc main_v8) = _
  after_results
  rfl
theorem W4_v9 (c : Dev nD) :
    (W4 (F := Ideal) m c (Proc.devRef .tc main_v9) : S4x1024x2048.Idx → EReal)
      = shapeCast S4x1024x2048 (kvArr m c) shapeCasts_S4096x2048_S4x1024x2048 := by
  show StableHlo.after hostOps2 (W3 (F := Ideal) m c) (Proc.devRef .tc main_v9) = _
  after_results
  rfl

/-- Row `b * 1024 + s` of the 4096 rows is token `s` of batch entry `b`. -/
def flatRow (b : Fin 4) (s : Fin 1024) : Fin 4096 := ⟨b.val * 1024 + s.val, by omega⟩

theorem rows_apply (x : S4x1024x1024.Idx → EReal) (b : Fin 4) (s k : Fin 1024) :
    shapeCast S4096x1024 x shapeCasts_S4x1024x1024_S4096x1024 (ix2 (flatRow b s) k) = x (ix3 b s k) :=
  shapeCast_apply x _ _ _ (by rw [Shape.rowMajor_val_three, Shape.rowMajor_val_two]; rfl)

theorem tok_apply (y : S4096x1024.Idx → EReal) (b : Fin 4) (s n : Fin 1024) :
    shapeCast S4x1024x1024 y shapeCasts_S4096x1024_S4x1024x1024 (ix3 b s n) = y (ix2 (flatRow b s) n) :=
  shapeCast_apply y _ _ _ (by rw [Shape.rowMajor_val_three, Shape.rowMajor_val_two]; rfl)

theorem tok2_apply (y : S4096x2048.Idx → EReal) (b : Fin 4) (s : Fin 1024) (n : Fin 2048) :
    shapeCast S4x1024x2048 y shapeCasts_S4096x2048_S4x1024x2048 (ix3 b s n) = y (ix2 (flatRow b s) n) :=
  shapeCast_apply y _ _ _ (by rw [Shape.rowMajor_val_three, Shape.rowMajor_val_two]; rfl)

/-- Of the keys' and values' weights side by side, a column below 1024 is the keys' column and a column from
    1024 the values'; likewise the two biases end to end. -/
theorem wts_k (a b : S1024x1024.Idx → EReal) (k : Fin 1024) (h : Fin 16) (d : Fin 64) :
    concatenate S1024x2048 1 [⟨S1024x1024, a⟩, ⟨S1024x1024, b⟩] concatenates_S1024x1024_S1024x1024_S1024x2048_d1 (ix2 k (kcol h d))
      = a (ix2 k (Cert.Spec.col h d)) :=
  concatenate_pair_apply_left (t := S1024x2048) 1 a b concatenates_S1024x1024_S1024x1024_S1024x2048_d1 (ix2 k (kcol h d)) rfl (ix2 k (Cert.Spec.col h d)) (fun e => by
    match e with
    | ⟨0, _⟩ => rfl
    | ⟨1, _⟩ => rfl)

theorem wts_v (a b : S1024x1024.Idx → EReal) (k : Fin 1024) (h : Fin 16) (d : Fin 64) :
    concatenate S1024x2048 1 [⟨S1024x1024, a⟩, ⟨S1024x1024, b⟩] concatenates_S1024x1024_S1024x1024_S1024x2048_d1 (ix2 k (vcol h d))
      = b (ix2 k (Cert.Spec.col h d)) :=
  concatenate_pair_apply_right (t := S1024x2048) 1 a b concatenates_S1024x1024_S1024x1024_S1024x2048_d1 (ix2 k (vcol h d)) rfl rfl (ix2 k (Cert.Spec.col h d)) (fun e he => by
    match e, he with
    | ⟨0, _⟩, _ => rfl
    | ⟨1, _⟩, he => exact absurd rfl he)
    (by show (Cert.Spec.col h d).val + 1024 = (vcol h d).val; unfold Cert.Spec.col vcol; simp only; omega)

theorem bias_k (a b : S1024.Idx → EReal) (h : Fin 16) (d : Fin 64) :
    concatenate S2048 0 [⟨S1024, a⟩, ⟨S1024, b⟩] concatenates_S1024_S1024_S2048_d0 (ix1 (kcol h d)) = a (ix1 (Cert.Spec.col h d)) :=
  concatenate_pair_apply_left (t := S2048) 0 a b concatenates_S1024_S1024_S2048_d0 (ix1 (kcol h d)) rfl (ix1 (Cert.Spec.col h d)) (fun e => by
    match e with
    | ⟨0, _⟩ => rfl)

theorem bias_v (a b : S1024.Idx → EReal) (h : Fin 16) (d : Fin 64) :
    concatenate S2048 0 [⟨S1024, a⟩, ⟨S1024, b⟩] concatenates_S1024_S1024_S2048_d0 (ix1 (vcol h d)) = b (ix1 (Cert.Spec.col h d)) :=
  concatenate_pair_apply_right (t := S2048) 0 a b concatenates_S1024_S1024_S2048_d0 (ix1 (vcol h d)) rfl rfl (ix1 (Cert.Spec.col h d)) (fun e he => by
    match e, he with
    | ⟨0, _⟩, he => exact absurd rfl he)
    (by show (Cert.Spec.col h d).val + 1024 = (vcol h d).val; unfold Cert.Spec.col vcol; simp only; omega)

/-- The attention region's queries, keys and values are the three projections of the arguments. -/
theorem q_apply (c : Dev nD) (b : Fin 4) (i n : Fin 1024) :
    (V4 (F := Ideal) m c main_v8 : S4x1024x1024.Idx → EReal) (ix3 b i n)
      = Cert.Spec.proj (xq m c) (wq m c) (bq m c) b i n := by
  show (W4 (F := Ideal) m c (Proc.devRef .tc main_v8) : S4x1024x1024.Idx → EReal) (ix3 b i n) = _
  rw [W4_v8, tok_apply, qArr_apply]
  simp only [rows_apply]
  rfl

theorem k_apply (c : Dev nD) (b : Fin 4) (i : Fin 1024) (h : Fin 16) (d : Fin 64) :
    (V4 (F := Ideal) m c main_v9 : S4x1024x2048.Idx → EReal) (ix3 b i (kcol h d))
      = Cert.Spec.proj (xk m c) (wk m c) (bk m c) b i (Cert.Spec.col h d) := by
  show (W4 (F := Ideal) m c (Proc.devRef .tc main_v9) : S4x1024x2048.Idx → EReal) (ix3 b i (kcol h d)) = _
  rw [W4_v9, tok2_apply, kvArr_apply]
  simp only [rows_apply, wts_k, bias_k]
  rfl

theorem v_apply (c : Dev nD) (b : Fin 4) (i : Fin 1024) (h : Fin 16) (d : Fin 64) :
    (V4 (F := Ideal) m c main_v9 : S4x1024x2048.Idx → EReal) (ix3 b i (vcol h d))
      = Cert.Spec.proj (xk m c) (wv m c) (bv m c) b i (Cert.Spec.col h d) := by
  show (W4 (F := Ideal) m c (Proc.devRef .tc main_v9) : S4x1024x2048.Idx → EReal) (ix3 b i (vcol h d)) = _
  rw [W4_v9, tok2_apply, kvArr_apply]
  simp only [rows_apply, wts_v, bias_v]
  rfl

/-- The late-normalised attention depends on its three arrays entry by entry. -/
theorem attnLate_ext {q q' k k' v v' : Fin 1024 → Fin 64 → EReal} (hq : ∀ i d, q i d = q' i d)
    (hk : ∀ i d, k i d = k' i d) (hv : ∀ i d, v i d = v' i d) (s : Fin 1024) (d : Fin 64) :
    Cert.Spec.attnLate q k v s d = Cert.Spec.attnLate q' k' v' s d := by
  rw [show q = q' from funext fun i => funext fun d => hq i d, show k = k' from funext fun i => funext fun d => hk i d,
    show v = v' from funext fun i => funext fun d => hv i d]

/-- The result array after the program's last region, as a function of the argument arrays. -/
theorem out_eq (c : Dev nD) :
    (W5 (F := Ideal) m c (Proc.devRef .tc main_v10) : Cert.Spec.Tok)
      = Cert.Spec.kernelOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  funext j
  obtain ⟨b, s, n, rfl⟩ : ∃ b s n, j = ix3 b s n := ⟨_, _, _, eq_ix3 j⟩
  rw [W5_out, arr2]
  exact attnLate_ext (fun i d => q_apply m c b i _) (fun i d => k_apply m c b i _ d) (fun i d => v_apply m c b i _ d) s _

end Cert.KernelIdeal.Hand

end
-- ==== Proof.RefValue.lean ====
/-
  The reference's result, index by index. The reference projects the two inputs by three weight matrices and
  biases, splits each projection's 1024 columns into 16 heads of 64, and per batch entry and head takes the scaled
  inner products of query rows against key rows, subtracts each row's maximum, exponentiates, divides every
  weight by the row's sum of weights, and combines the value rows by those normalised weights. Read at the
  output index [batch, token, column] through the reshapes and transposes, that is `Spec.refOut`: the column's
  head is column / 64 and its place in the head is column % 64.
-/
import proofs.«430604_j26903675142357_3_alg».proof.Defs
import proofs.«430604_j26903675142357_3_alg».proof.Proof.Gen.ReferenceIdeal.Run
import proofs.«430604_j26903675142357_3_alg».proof.Proof.Gen.ReferenceIdeal.Read
import proofs.«430604_j26903675142357_3_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Idealize.SL.Sem Cert.ReferenceIdeal

open Cert.ReferenceIdeal.Read Cert.ReferenceIdeal.Gen

/-- A batch of sequences, a weight matrix and a bias as the reference's stages take them. -/
abbrev TokB : Type := (⟨S4x1024x1024, .f32⟩ : BufTy).Contents (Elt Ideal)
abbrev MatB : Type := (⟨S1024x1024, .f32⟩ : BufTy).Contents (Elt Ideal)
abbrev BiasB : Type := (⟨S1024, .f32⟩ : BufTy).Contents (Elt Ideal)

/-- Row `b * 1024 + s` of the flattened [4096, 1024] view of a batch. -/
def row (b : Fin 4) (s : Fin 1024) : Fin 4096 := ⟨b.val * 1024 + s.val, by omega⟩

/-- The flattened projection at row `b * 1024 + s`, column `n`, is the row of token `s` of batch entry `b` times the
    matrix, plus the bias. -/
theorem proj_apply (x : TokB) (w : MatB) (bias : BiasB) (b : Fin 4) (s : Fin 1024) (n : Fin 1024) :
    val_main_v4 (F := Ideal) x w bias (ix2 (row b s) n) = Cert.Spec.proj x w bias b s n := by
  rw [val_main_v4_apply, val_main_v1_apply, val_main_v3_apply, val_main_v2_apply]
  have e0 : ∀ k : Fin 1024, idx_main_v0 (lidx_main_v1 (ix2 (row b s) n) k) = ix3 b s k := fun k => funext fun a => Fin.ext (by
    have hb := b.isLt; have hs := s.isLt; have hk := k.isLt
    match a with
    | ⟨0, _⟩ => show (((row b s).val * 1024 + k.val) / 1048576) = b.val; unfold row; simp only; omega
    | ⟨1, _⟩ => show (((row b s).val * 1024 + k.val) / 1024 % 1024) = s.val; unfold row; simp only; omega
    | ⟨2, _⟩ => show (((row b s).val * 1024 + k.val) % 1024) = k.val; unfold row; simp only; omega)
  have e1 : ∀ k : Fin 1024, ridx_main_v1 (ix2 (row b s) n) k = ix2 k n := fun k => funext fun a => Fin.ext (by
    match a with
    | ⟨0, _⟩ => rfl
    | ⟨1, _⟩ => rfl)
  have e2 : idx_main_v2 (idx_main_v3 (ix2 (row b s) n)) = ix1 n := funext fun a => Fin.ext (by
    match a with
    | ⟨0, _⟩ => rfl)
  simp only [val_main_v0_apply, e0, e1, e2]
  rfl

/-- The key and value projections are the same stages over other arguments. -/
theorem v9_eq (x : TokB) (w : MatB) (bias : BiasB) : val_main_v9 (F := Ideal) x w bias = val_main_v4 (F := Ideal) x w bias := rfl
theorem v14_eq (x : TokB) (w : MatB) (bias : BiasB) : val_main_v14 (F := Ideal) x w bias = val_main_v4 (F := Ideal) x w bias := rfl
theorem v18_eq (x : TokB) (w : MatB) (bias : BiasB) : val_main_v18 (F := Ideal) x w bias = val_main_v16 (F := Ideal) x w bias := rfl
theorem v20_eq (x : TokB) (w : MatB) (bias : BiasB) : val_main_v20 (F := Ideal) x w bias = val_main_v16 (F := Ideal) x w bias := rfl

/-- Splitting the 1024 columns into 16 heads of 64 and moving the head axis forward: entry [b, h, s, d] is column
    `h * 64 + d` of the projection of token `s` of batch entry `b`. -/
theorem head_apply (x : TokB) (w : MatB) (bias : BiasB) (b : Fin 4) (h : Fin 16) (s : Fin 1024) (d : Fin 64) :
    val_main_v16 (F := Ideal) x w bias (ix4 b h s d) = Cert.Spec.head (Cert.Spec.proj x w bias b) h s d := by
  rw [val_main_v16_apply, val_main_v15_apply]
  have e : idx_main_v15 (idx_main_v16 (ix4 b h s d)) = ix2 (row b s) (Cert.Spec.col h d) := funext fun a => Fin.ext (by
    have hb := b.isLt; have hh := h.isLt; have hs := s.isLt; have hd := d.isLt
    match a with
    | ⟨0, _⟩ => show (((b.val * 1024 + s.val) * 16 + h.val) * 64 + d.val) / 1024 = (row b s).val; unfold row; simp only; omega
    | ⟨1, _⟩ => show (((b.val * 1024 + s.val) * 16 + h.val) * 64 + d.val) % 1024 = (Cert.Spec.col h d).val; unfold Cert.Spec.col; simp only; omega)
  rw [e, proj_apply]
  rfl

theorem reduces_d3 : S4x16x1024x1024.Reduces [3] S4x16x1024 := by decide

/-- The row index [b, h, i] with key `k` put back on the reduced axis is [b, h, i, k]. -/
theorem lift_ix3 (b : Fin 4) (h : Fin 16) (i : Fin 1024) (k : Fin (S4x16x1024x1024.size 3)) :
    reduces_d3.lift (ix3 b h i) k = ix4 b h i (⟨k.val, k.isLt⟩ : Fin 1024) := by
  funext c; apply Fin.ext
  match c with
  | ⟨0, _⟩ => rfl
  | ⟨1, _⟩ => rfl
  | ⟨2, _⟩ => rfl
  | ⟨3, _⟩ => rfl

section Heads

variable (x0 x1 : TokB) (x2 : MatB) (x3 : BiasB) (x4 : MatB) (x5 : BiasB) (x6 : MatB) (x7 : BiasB)

/-- The query, key and value heads of batch entry `b`, head `h`. -/
abbrev qh (b : Fin 4) (h : Fin 16) : Fin 1024 → Fin 64 → EReal := Cert.Spec.head (Cert.Spec.proj x0 x2 x3 b) h
abbrev kh (b : Fin 4) (h : Fin 16) : Fin 1024 → Fin 64 → EReal := Cert.Spec.head (Cert.Spec.proj x1 x4 x5 b) h
abbrev vh (b : Fin 4) (h : Fin 16) : Fin 1024 → Fin 64 → EReal := Cert.Spec.head (Cert.Spec.proj x1 x6 x7 b) h

/-- The scaled inner product of query row `i` and key row `j`. -/
theorem score_apply (b : Fin 4) (h : Fin 16) (i j : Fin 1024) :
    val_main_v23 (F := Ideal) x0 x1 x2 x3 x4 x5 (ix4 b h i j)
      = Cert.Spec.score (qh x0 x2 x3 b h) (kh x1 x4 x5 b h) i j := by
  rw [val_main_v23_apply, val_main_v21_apply, val_main_v22_apply, val_main_cst_apply]
  have el : ∀ k : Fin 64, lidx_main_v21 (ix4 b h i j) k = ix4 b h i k := fun k => funext fun a => Fin.ext (by
    match a with
    | ⟨0, _⟩ => rfl
    | ⟨1, _⟩ => rfl
    | ⟨2, _⟩ => rfl
    | ⟨3, _⟩ => rfl)
  have er : ∀ k : Fin 64, ridx_main_v21 (ix4 b h i j) k = ix4 b h j k := fun k => funext fun a => Fin.ext (by
    match a with
    | ⟨0, _⟩ => rfl
    | ⟨1, _⟩ => rfl
    | ⟨2, _⟩ => rfl
    | ⟨3, _⟩ => rfl)
  simp only [el, er, v18_eq, head_apply]
  rfl

/-- The reference takes the larger of minus infinity and the row's fold of maxima from minus infinity: the fold. -/
theorem rowMax_apply (b : Fin 4) (h : Fin 16) (i : Fin 1024) :
    val_main_v26 (F := Ideal) x0 x1 x2 x3 x4 x5 (ix3 b h i)
      = Cert.Spec.rowMax (qh x0 x2 x3 b h) (kh x1 x4 x5 b h) i := by
  rw [val_main_v26_apply, val_main_v25_apply, val_main_cst_1_apply]
  unfold val_main_v24
  rw [Host.reduce_eq_fold_single FloatOps.maximumf _ _ reducesTo_S4x16x1024x1024_S4x16x1024_d3 reduces_d3 h_S_]
  have hf : (val_main_v23 (F := Ideal) x0 x1 x2 x3 x4 x5 ∘ reduces_d3.lift (ix3 b h i))
      = Cert.Spec.score (qh x0 x2 x3 b h) (kh x1 x4 x5 b h) i := funext fun k => by
    show val_main_v23 (F := Ideal) x0 x1 x2 x3 x4 x5 (reduces_d3.lift (ix3 b h i) k) = _
    rw [lift_ix3, score_apply]; rfl
  rw [hf]
  exact max_eq_right ((Finset.le_fold_max _).2 (Or.inl le_rfl))

/-- The exponential of a score less its row's maximum. -/
theorem weight_apply (b : Fin 4) (h : Fin 16) (i j : Fin 1024) :
    val_main_v30 (F := Ideal) x0 x1 x2 x3 x4 x5 (ix4 b h i j)
      = Cert.Spec.weight (qh x0 x2 x3 b h) (kh x1 x4 x5 b h) i j := by
  rw [val_main_v30_apply, val_main_v29_apply, val_main_v28_apply, val_main_v27_apply]
  have e : idx_main_v27 (idx_main_v28 (ix4 b h i j)) = ix3 b h i := funext fun a => Fin.ext (by
    match a with
    | ⟨0, _⟩ => rfl
    | ⟨1, _⟩ => rfl
    | ⟨2, _⟩ => rfl)
  rw [e, rowMax_apply, score_apply]
  rfl

/-- The sum of a row's weights; the reference's sum starts from zero. -/
theorem denom_apply (b : Fin 4) (h : Fin 16) (i : Fin 1024) :
    val_main_v31 (F := Ideal) x0 x1 x2 x3 x4 x5 (ix3 b h i)
      = Cert.Spec.denom (qh x0 x2 x3 b h) (kh x1 x4 x5 b h) i := by
  rw [val_main_v31_apply, val_main_cst_2_apply]
  have e : ∀ k : Fin 1024, idx_main_v31 (ix3 b h i) k = ix4 b h i k := fun k => funext fun a => Fin.ext (by
    match a with
    | ⟨0, _⟩ => rfl
    | ⟨1, _⟩ => rfl
    | ⟨2, _⟩ => rfl
    | ⟨3, _⟩ => rfl)
  simp only [e, weight_apply]
  show Ideal.ofBits .f32 0x00000000#32 + _ = _
  rw [Ideal.ofBits_zero_f32, zero_add]
  rfl

/-- A weight divided by its row's sum. -/
theorem prob_apply (b : Fin 4) (h : Fin 16) (i j : Fin 1024) :
    val_main_v34 (F := Ideal) x0 x1 x2 x3 x4 x5 (ix4 b h i j)
      = Ideal.div (Cert.Spec.weight (qh x0 x2 x3 b h) (kh x1 x4 x5 b h) i j) (Cert.Spec.denom (qh x0 x2 x3 b h) (kh x1 x4 x5 b h) i) := by
  rw [val_main_v34_apply, val_main_v33_apply, val_main_v32_apply]
  have e : idx_main_v32 (idx_main_v33 (ix4 b h i j)) = ix3 b h i := funext fun a => Fin.ext (by
    match a with
    | ⟨0, _⟩ => rfl
    | ⟨1, _⟩ => rfl
    | ⟨2, _⟩ => rfl)
  rw [e, denom_apply, weight_apply]
  rfl

/-- The normalised weights' combination of the value rows. -/
theorem attn_apply (b : Fin 4) (h : Fin 16) (i : Fin 1024) (d : Fin 64) :
    val_main_v35 (F := Ideal) x0 x1 x2 x3 x4 x5 x6 x7 (ix4 b h i d)
      = Cert.Spec.attnEarly (qh x0 x2 x3 b h) (kh x1 x4 x5 b h) (vh x1 x6 x7 b h) i d := by
  rw [val_main_v35_apply]
  have el : ∀ k : Fin 1024, lidx_main_v35 (ix4 b h i d) k = ix4 b h i k := fun k => funext fun a => Fin.ext (by
    match a with
    | ⟨0, _⟩ => rfl
    | ⟨1, _⟩ => rfl
    | ⟨2, _⟩ => rfl
    | ⟨3, _⟩ => rfl)
  have er : ∀ k : Fin 1024, ridx_main_v35 (ix4 b h i d) k = ix4 b h k d := fun k => funext fun a => Fin.ext (by
    match a with
    | ⟨0, _⟩ => rfl
    | ⟨1, _⟩ => rfl
    | ⟨2, _⟩ => rfl
    | ⟨3, _⟩ => rfl)
  simp only [el, er, prob_apply, v20_eq, head_apply]
  rfl

/-- Moving the head axis back and merging heads into columns: column `n` is place `n % 64` of head `n / 64`. -/
theorem out_apply (b : Fin 4) (s : Fin 1024) (n : Fin 1024) :
    val_main_v37 (F := Ideal) x0 x1 x2 x3 x4 x5 x6 x7 (ix3 b s n)
      = Cert.Spec.attnEarly (qh x0 x2 x3 b (Cert.Spec.headOf n)) (kh x1 x4 x5 b (Cert.Spec.headOf n))
          (vh x1 x6 x7 b (Cert.Spec.headOf n)) s (Cert.Spec.within n) := by
  rw [val_main_v37_apply, val_main_v36_apply]
  have e : idx_main_v36 (idx_main_v37 (ix3 b s n)) = ix4 b (Cert.Spec.headOf n) s (Cert.Spec.within n) := funext fun a => Fin.ext (by
    have hb := b.isLt; have hs := s.isLt; have hn := n.isLt
    match a with
    | ⟨0, _⟩ => show ((b.val * 1024 + s.val) * 1024 + n.val) / 1048576 = b.val; omega
    | ⟨1, _⟩ => show ((b.val * 1024 + s.val) * 1024 + n.val) / 64 % 16 = (Cert.Spec.headOf n).val; unfold Cert.Spec.headOf; simp only; omega
    | ⟨2, _⟩ => show ((b.val * 1024 + s.val) * 1024 + n.val) / 1024 % 1024 = s.val; omega
    | ⟨3, _⟩ => show ((b.val * 1024 + s.val) * 1024 + n.val) % 64 = (Cert.Spec.within n).val; unfold Cert.Spec.within; simp only; omega)
  rw [e, attn_apply]

end Heads

/-- The reference's result array, as the run states it, is the early-normalised attention of its arguments. -/
theorem res_eq (m : (ℓ : Loc nD τ sig) → Buf (Elt Ideal) ℓ) (c : Dev nD) :
    (Cert.ReferenceIdeal.Value.res_out0 (F := Ideal) m c : Cert.Spec.Tok)
      = Cert.Spec.refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  refine (Read.val_main_v37_eq (F := Ideal) m c).trans ?_
  funext j
  obtain ⟨b, s, n, rfl⟩ : ∃ b s n, j = ix3 b s n := ⟨_, _, _, eq_ix3 j⟩
  exact out_apply _ _ _ _ _ _ _ _ b s n

end Cert.ReferenceIdeal.RefValue

end
-- ==== Proof.Law.lean ====
/-
  Where the normalisation sits does not matter on finite inputs.

  If every input entry is a real number then every projection entry is one (a finite sum of products of reals
  plus a real), every score is one, a row's maximum over its 1024 scores is one of them, every weight is the
  exponential of a real, hence a positive real, and the weights' sum is a positive real `r`. Dividing by it is
  multiplying by the real `1/r`, and a real factor moves across a finite sum of reals.
-/
import proofs.«430604_j26903675142357_3_alg».proof.Proof.Spec
import Mathlib.Data.EReal.Operations
import Mathlib.Algebra.BigOperators.Ring.Finset
import Mathlib.Algebra.Order.BigOperators.Group.Finset
import Mathlib.Analysis.SpecialFunctions.Exp

noncomputable section

open scoped BigOperators

namespace Cert.Spec

open Idealize.ShloMosaic Idealize.ShloMosaic.ValueIdx

/-- The embedding of the reals commutes with finite sums. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The scale is a real number. -/
theorem scale_real : ∃ r : ℝ, scale = (r : EReal) := by
  unfold scale
  simp [Ideal.ofBits, Ideal.ieee]
  exact ⟨_, rfl⟩

/-- The maximum's starting value is minus infinity. -/
theorem negInf_eq : negInf = ⊥ := by
  unfold negInf
  simp [Ideal.ofBits, Ideal.ieee]

/-- The running maximum, started from minus infinity, of finitely many reals is minus infinity over no reals and a
    real otherwise. -/
theorem fold_max_real {ι : Type} (s : Finset ι) (f : ι → ℝ) :
    (s = ∅ ∧ s.fold max (⊥ : EReal) (fun j => (f j : EReal)) = ⊥)
      ∨ ∃ r : ℝ, s.fold max (⊥ : EReal) (fun j => (f j : EReal)) = (r : EReal) := by
  classical
  induction s using Finset.induction_on with
  | empty => left; exact ⟨rfl, Finset.fold_empty⟩
  | insert a s ha ih =>
    right
    rw [Finset.fold_insert ha]
    rcases ih with ⟨_, h⟩ | ⟨r, h⟩
    · rw [h, max_eq_left bot_le]; exact ⟨_, rfl⟩
    · rw [h]; exact ⟨max (f a) r, (EReal.coe_strictMono.monotone.map_max).symm⟩

/-- With real weights, real values and a nonzero real sum, dividing the combination equals combining the divided
    weights: both are the real `(∑ w j * v j) / r`. -/
theorem div_sum_eq (w v : Fin 1024 → ℝ) (r : ℝ) (hr : r ≠ 0) :
    Ideal.div (∑ j : Fin 1024, (w j : EReal) * (v j : EReal)) (r : EReal)
      = ∑ j : Fin 1024, Ideal.div (w j : EReal) (r : EReal) * (v j : EReal) := by
  simp only [Ideal.div_coe hr, ← EReal.coe_mul, coe_sum]
  congr 1
  rw [Finset.sum_mul]
  exact Finset.sum_congr rfl fun j _ => by ring

section Head

variable (q k v : Fin 1024 → Fin 64 → EReal)

/-- One head: with real queries, keys and values the two placements agree. -/
theorem attn_eq (hq : ∀ i d, ∃ r : ℝ, q i d = (r : EReal)) (hk : ∀ i d, ∃ r : ℝ, k i d = (r : EReal))
    (hv : ∀ i d, ∃ r : ℝ, v i d = (r : EReal)) (i : Fin 1024) (d : Fin 64) :
    attnLate q k v i d = attnEarly q k v i d := by
  choose q' hq' using hq
  choose k' hk' using hk
  choose v' hv' using hv
  obtain ⟨c, hc⟩ := scale_real
  -- every score of the row is a real
  have hscore : ∀ j, score q k i j = (((∑ e : Fin 64, q' i e * k' j e) * c : ℝ) : EReal) := by
    intro j
    unfold score
    simp only [hq', hk', hc, ← EReal.coe_mul, coe_sum]
  -- so is the row's maximum, the row being nonempty
  obtain ⟨m, hm⟩ : ∃ m : ℝ, rowMax q k i = (m : EReal) := by
    unfold rowMax
    rw [negInf_eq, show score q k i = fun j => (((∑ e : Fin 64, q' i e * k' j e) * c : ℝ) : EReal) from funext hscore]
    rcases fold_max_real Finset.univ (fun j : Fin 1024 => (∑ e : Fin 64, q' i e * k' j e) * c) with ⟨h, _⟩ | h
    · exact absurd h (Finset.ne_empty_of_mem (Finset.mem_univ (0 : Fin 1024)))
    · exact h
  -- every weight is the exponential of a real
  have hweight : ∀ j, weight q k i j = ((Real.exp ((∑ e : Fin 64, q' i e * k' j e) * c - m) : ℝ) : EReal) := by
    intro j
    unfold weight
    rw [hscore, hm, ← EReal.coe_sub, Ideal.exp_coe]
  -- and the weights' sum a positive real
  have hdenom : denom q k i = ((∑ j : Fin 1024, Real.exp ((∑ e : Fin 64, q' i e * k' j e) * c - m) : ℝ) : EReal) := by
    unfold denom
    simp only [hweight, coe_sum]
  have hpos : (0 : ℝ) < ∑ j : Fin 1024, Real.exp ((∑ e : Fin 64, q' i e * k' j e) * c - m) :=
    Finset.sum_pos (fun j _ => Real.exp_pos _) ⟨0, Finset.mem_univ _⟩
  unfold attnLate attnEarly
  simp only [hweight, hdenom, hv']
  exact div_sum_eq _ _ _ hpos.ne'

end Head

/-- Every projection entry of real inputs is a real. -/
theorem proj_real {x : Tok} {w : Mat} {bias : Bias} (hx : IsReal x) (hw : IsReal w) (hb : IsReal bias)
    (b : Fin 4) (s : Fin 1024) (n : Fin 1024) : ∃ r : ℝ, proj x w bias b s n = (r : EReal) := by
  choose x' hx' using hx
  choose w' hw' using hw
  choose b' hb' using hb
  unfold proj
  simp only [hx', hw', hb', ← EReal.coe_mul, coe_sum, ← EReal.coe_add]
  exact ⟨_, rfl⟩

/-- On inputs that are real everywhere the two placements of the normalisation give one result. -/
theorem out_eq {x y : Tok} {wq : Mat} {bq : Bias} {wk : Mat} {bk : Bias} {wv : Mat} {bv : Bias}
    (hx : IsReal x) (hy : IsReal y) (hwq : IsReal wq) (hbq : IsReal bq) (hwk : IsReal wk) (hbk : IsReal bk)
    (hwv : IsReal wv) (hbv : IsReal bv) :
    kernelOut x y wq bq wk bk wv bv = refOut x y wq bq wk bk wv bv := by
  funext j
  unfold kernelOut refOut
  exact attn_eq _ _ _ (fun s d => proj_real hx hwq hbq _ _ _) (fun s d => proj_real hy hwk hbk _ _ _)
    (fun s d => proj_real hy hwv hbv _ _ _) _ _

end Cert.Spec

end
-- ==== Proof.Finite.lean ====
/-
  The precondition says every entry of every input is a real number: each input's absolute value is compared,
  entry by entry, against plus infinity, the comparisons are conjoined over the array, and the eight
  conjunctions are conjoined. An extended real whose absolute value is below plus infinity is neither infinity.
-/
import proofs.«430604_j26903675142357_3_alg».proof.Defs
import proofs.«430604_j26903675142357_3_alg».proof.Proof.Gen.KernelIdeal
import proofs.«430604_j26903675142357_3_alg».proof.Proof.Gen.Pre_finite_inputs
import proofs.«430604_j26903675142357_3_alg».proof.Proof.Spec
import Idealize.ShloMosaic.Lib.ReduceAll

noncomputable section

namespace Cert.KernelIdeal.Finite

open Idealize.ShloMosaic Idealize.SL.Sem Cert.KernelIdeal

/-- The rank-0 shape has one index. -/
instance : Subsingleton Cert.Pre_finite_inputs.S_.Idx := ⟨fun a b => funext fun d => d.elim0⟩

/-- The pattern the absolute values are compared against is plus infinity. -/
theorem inf_eq : Ideal.ofBits .f32 0x7F800000#32 = (⊤ : EReal) := by simp [Ideal.ofBits, Ideal.ieee]

/-- An extended real whose absolute value is below plus infinity is a real number. -/
theorem real_of_abs_lt (x : EReal) (h : Ideal.cmp .olt (max x (-x)) (Ideal.ofBits .f32 0x7F800000#32) = 1#1) :
    ∃ r : ℝ, x = (r : EReal) := by
  rw [inf_eq] at h
  unfold Ideal.cmp at h
  induction x using EReal.rec with
  | bot => simp at h
  | coe r => exact ⟨r, rfl⟩
  | top => simp at h

/-- One input: if the conjunction over the whole array of "the absolute value is below plus infinity" holds, the
    array is real everywhere. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
        (cmpf .olt (Host.absf x) (broadcastInDim s ![] hb (constant Cert.Pre_finite_inputs.S_ .f32 0x7F800000#32)))
        (constantI Cert.Pre_finite_inputs.S_ 1 1#1) hr h0 ValueIdx.ix0 = 1#1) :
    Cert.Spec.IsReal (x : s.Idx → EReal) := by
  intro i
  have hi := Host.reduce_andi_all _ _ hr h0 _ e i
  exact real_of_abs_lt (x i) hi

/-- Under the precondition every input array of the idealized kernel holds real numbers only. -/
theorem real_of_pre (m : (ℓ : Loc nD τ sig) → Buf (Elt Ideal) ℓ) (h : Cert.Pre_KernelIdeal m) (c : Dev nD) :
    Cert.Spec.IsReal (m ((c.tc : Thread nD τ).loc main_arg0) : Cert.Spec.Tok)
    ∧ Cert.Spec.IsReal (m ((c.tc : Thread nD τ).loc main_arg1) : Cert.Spec.Tok)
    ∧ Cert.Spec.IsReal (m ((c.tc : Thread nD τ).loc main_arg2) : Cert.Spec.Mat)
    ∧ Cert.Spec.IsReal (m ((c.tc : Thread nD τ).loc main_arg3) : Cert.Spec.Bias)
    ∧ Cert.Spec.IsReal (m ((c.tc : Thread nD τ).loc main_arg4) : Cert.Spec.Mat)
    ∧ Cert.Spec.IsReal (m ((c.tc : Thread nD τ).loc main_arg5) : Cert.Spec.Bias)
    ∧ Cert.Spec.IsReal (m ((c.tc : Thread nD τ).loc main_arg6) : Cert.Spec.Mat)
    ∧ Cert.Spec.IsReal (m ((c.tc : Thread nD τ).loc main_arg7) : Cert.Spec.Bias) := by
  have e := congrFun (h c) ValueIdx.ix0
  dsimp only [Cert.Pre_finite_inputs.fn, Cert.Pre_finite_inputs.fn_part1, Cert.Pre_finite_inputs.fn_part2] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨isReal_of_all _ _ _ _ e0, isReal_of_all _ _ _ _ e1, isReal_of_all _ _ _ _ e2, isReal_of_all _ _ _ _ e3,
    isReal_of_all _ _ _ _ e4, isReal_of_all _ _ _ _ e5, isReal_of_all _ _ _ _ e6, isReal_of_all _ _ _ _ e7⟩

end Cert.KernelIdeal.Finite

end
-- ==== Proof.lean ====
/-
  The certificate of a multi-head attention kernel against its jnp reference, over the extended reals.

  Both programs project the two inputs by three weight matrices and biases and, per batch entry and head, apply
  the softmax of the scaled query–key scores to the value rows. The kernel runs three pipelines — the query
  projection, the key and value projections as one matrix product over the two weight matrices side by side, and
  the attention itself over pairs of heads — and divides the weighted sum of value rows by the weights' sum; the
  reference divides every weight by that sum first. Under the precondition every input entry is a real number, so
  every weight is a positive real and so is their sum, and division by it distributes over the sum: the two
  results are equal entry by entry.

  The three frames: each kernel program's run (the launch and its five items, each region's arrays taken out of
  the core's buffers and put back) leaves every argument as launched; the reference is host operations only.
  The ideal pass rewrote nothing, so the kernel's idealization is its own text read at the ideal instance.
-/
import proofs.«430604_j26903675142357_3_alg».proof.Defs
import proofs.«430604_j26903675142357_3_alg».proof.Proof.Gen.Kernel
import proofs.«430604_j26903675142357_3_alg».proof.Proof.Gen.KernelIdeal
import proofs.«430604_j26903675142357_3_alg».proof.Proof.Gen.ReferenceIdeal
import proofs.«430604_j26903675142357_3_alg».proof.Proof.Gen.ReferenceIdeal.Run
import proofs.«430604_j26903675142357_3_alg».proof.Proof.Gen.Pre_finite_inputs
import proofs.«430604_j26903675142357_3_alg».proof.Proof.K.Run
import proofs.«430604_j26903675142357_3_alg».proof.Proof.KI.Run
import proofs.«430604_j26903675142357_3_alg».proof.Proof.KI.KernelValue
import proofs.«430604_j26903675142357_3_alg».proof.Proof.RefValue
import proofs.«430604_j26903675142357_3_alg».proof.Proof.Law
import proofs.«430604_j26903675142357_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ =>
  (θ_run Cert.Kernel.defs _ _).mono (fun _ h c => (h c).2) (Cert.Kernel.Hand.run_out (F := Bits) m ρ)

/-- So does its reading at the ideal instance. -/
theorem frame_kernelIdeal : Cert.frame_KernelIdeal := fun m ρ _ =>
  (θ_run Cert.KernelIdeal.defs _ _).mono (fun _ h c => (h c).2) (Cert.KernelIdeal.Hand.run_out (F := Ideal) m ρ)

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments, which the precondition makes real everywhere, the kernel's result
    (the late normalisation) and the reference's (the early one) are one array. -/
theorem algebraic : Cert.algebraic_KernelIdeal_ReferenceIdeal := by
  intro m ρ m' ρ' hpre hagree
  refine ⟨fun c => Cert.KernelIdeal.Hand.W5 (F := Ideal) m c (Proc.devRef .tc Cert.KernelIdeal.main_v10),
    Cert.KernelIdeal.Hand.run_out (F := Ideal) m ρ, ?_⟩
  refine (θ_run Cert.ReferenceIdeal.defs _ _).mono (fun _ h c => ⟨(h c).1.trans ?_, (h c).2⟩)
    (Cert.ReferenceIdeal.Value.run (F := Ideal) m' ρ')
  have hr := Cert.ReferenceIdeal.RefValue.res_eq m' c
  have hk := Cert.KernelIdeal.Hand.out_eq m c
  obtain ⟨h0, h1, h2, h3, h4, h5, h6, h7⟩ := Cert.KernelIdeal.Finite.real_of_pre m hpre c
  obtain ⟨e0, e1, e2, e3, e4, e5, e6, e7⟩ := hagree c
  rw [e0, e1, e2, e3, e4, e5, e6, e7] at hr
  exact hr.trans ((Cert.Spec.out_eq h0 h1 h2 h3 h4 h5 h6 h7).symm.trans hk.symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
